-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1024 : Shape := ⟨1, ![1024]⟩
abbrev S1024x50 : Shape := ⟨2, ![1024, 50]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1024x50 : S_.BroadcastsInDim S1024x50 (![] : Fin 0 → Fin S1024x50.rank)
  reducesTo_S1024x50_S_d0_1 : S1024x50.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S100000x64 .f32) (main_arg1 : FVec F S100000x64 .f32) (main_arg2 : IVec S1024 32) (main_arg3 : IVec S1024x50 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_c_2 : IVec S_ 32 := constantI S_ 32 0#32
  let main_v9 : IVec S1024x50 32 := broadcastInDim S1024x50 ![] bcast_S_S1024x50 main_c_2
  let main_v10 : IVec S1024x50 1 := cmpi .sge main_arg3 main_v9
  let main_c_3 : IVec S_ 1 := constantI S_ 1 1#1
  let main_v11 : IVec S_ 1 := (fun x v => Host.reduce IntOp.andi x v reducesTo_S1024x50_S_d0_1 h_S_) main_v10 main_c_3
  let main_v12 : IVec S_ 1 := andi main_v8 main_v11
  let main_c_4 : IVec S_ 32 := constantI S_ 32 100000#32
  let main_v13 : IVec S1024x50 32 := broadcastInDim S1024x50 ![] bcast_S_S1024x50 main_c_4
  let main_v14 : IVec S1024x50 1 := cmpi .slt main_arg3 main_v13
  let main_c_5 : IVec S_ 1 := constantI S_ 1 1#1
  let main_v15 : IVec S_ 1 := (fun x v => Host.reduce IntOp.andi x v reducesTo_S1024x50_S_d0_1 h_S_) main_v14 main_c_5
  fn_part1 (F := F) main_v12 main_v15
-- ==== Kernel.lean ====
abbrev S100000x64 : Shape := ⟨2, ![100000, 64]⟩
abbrev S1024 : Shape := ⟨1, ![1024]⟩
abbrev S1024x50 : Shape := ⟨2, ![1024, 50]⟩
abbrev S_ : Shape := ⟨0, ![]⟩
abbrev S1024x1 : Shape := ⟨2, ![1024, 1]⟩
abbrev S1024x64 : Shape := ⟨2, ![1024, 64]⟩
abbrev S100352x64 : Shape := ⟨2, ![100352, 64]⟩
abbrev S1024x100352 : Shape := ⟨2, ![1024, 100352]⟩
abbrev S1x1 : Shape := ⟨2, ![1, 1]⟩
abbrev S512x64 : Shape := ⟨2, ![512, 64]⟩
abbrev S512x50 : Shape := ⟨2, ![512, 50]⟩
abbrev S512x1024 : Shape := ⟨2, ![512, 1024]⟩
abbrev S64x1024 : Shape := ⟨2, ![64, 1024]⟩
abbrev S1x1024 : Shape := ⟨2, ![1, 1024]⟩
abbrev S512x1 : Shape := ⟨2, ![512, 1]⟩
abbrev S512 : Shape := ⟨1, ![512]⟩
abbrev S1 : Shape := ⟨1, ![1]⟩
abbrev S1024x100000 : Shape := ⟨2, ![1024, 100000]⟩

abbrev nBuf : Space → Nat
  | .hbm => 20
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1024, .i32⟩
  | .hbm, ⟨3, _⟩ => ⟨S1024x50, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x64, .f32⟩
  | .hbm, ⟨13, _⟩ => ⟨S_, .i32⟩
  | .hbm, ⟨14, _⟩ => ⟨S_, .f32⟩
  | .hbm, ⟨15, _⟩ => ⟨S100352x64, .f32⟩
  | .hbm, ⟨16, _⟩ => ⟨S1024x100352, .f32⟩
  | .hbm, ⟨17, _⟩ => ⟨S1x1, .f32⟩
  | .hbm, ⟨18, _⟩ => ⟨S1024x100000, .f32⟩
  | .hbm, ⟨19, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S1024x64, .f32⟩
  | .local _ .vmem, ⟨3, _⟩ => ⟨S1024x64, .f32⟩
  | .local _ .vmem, ⟨4, _⟩ => ⟨S512x50, .i32⟩
  | .local _ .vmem, ⟨5, _⟩ => ⟨S512x50, .i32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | .local _ .vmem, ⟨9, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![2, 98], ![false, false]⟩

def k0_cond2 (i : grid0.Coords) : BitVec 1 :=
  let arg0 : BitVec 32 := BitVec.ofNat 32 (i 0).val
  let c1_i32 : BitVec 32 := 1#32
  let v284 : BitVec 1 := Scalar.cmpi .eq arg0 c1_i32
  let arg1 : BitVec 32 := BitVec.ofNat 32 (i 1).val
  let c97_i32 : BitVec 32 := 97#32
  let v285 : BitVec 1 := Scalar.cmpi .eq arg1 c97_i32
  let v286 : BitVec 1 := Scalar.andi v284 v285
  let v287 : BitVec 32 := Scalar.extui v286
  let c0_i32_16 : BitVec 32 := 0#32
  let v288 : BitVec 1 := Scalar.cmpi .ne v287 c0_i32_16
  v288

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x50 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  pads_S100000x64_S100352x64_03520_000 : S100000x64.Pads (![0, 0] : Fin 2 → Nat) ![352, 0] ![0, 0] S100352x64
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  inb_S512x1024_S512x1024_0_0 : ∀ a, (![0, 0] : Fin 2 → Nat) a + S512x1024.size a ≤ S512x1024.size a
  h_S512x1024 : 0 < S512x1024.numel
  iota_S1x1024_d1_w32 : S1x1024.Iotas .tc 32 [1]
  inb_S512x50_S512x50_0_0 : ∀ a, (![0, 0] : Fin 2 → Nat) a + S512x50.size a ≤ S512x50.size a
  h_S512x50 : 0 < S512x50.numel
  slices_S512x50_o0_0_S512x1 : S512x50.Slices ![0, 0] S512x1
  broadcasts_S512x1_S512x1024 : S512x1.Broadcasts S512x1024
  broadcasts_S1x1024_S512x1024 : S1x1024.Broadcasts S512x1024
  slices_S512x50_o0_1_S512x1 : S512x50.Slices ![0, 1] S512x1
  slices_S512x50_o0_2_S512x1 : S512x50.Slices ![0, 2] S512x1
  slices_S512x50_o0_3_S512x1 : S512x50.Slices ![0, 3] S512x1
  slices_S512x50_o0_4_S512x1 : S512x50.Slices ![0, 4] S512x1
  slices_S512x50_o0_5_S512x1 : S512x50.Slices ![0, 5] S512x1
  slices_S512x50_o0_6_S512x1 : S512x50.Slices ![0, 6] S512x1
  slices_S512x50_o0_7_S512x1 : S512x50.Slices ![0, 7] S512x1
  slices_S512x50_o0_8_S512x1 : S512x50.Slices ![0, 8] S512x1
  slices_S512x50_o0_9_S512x1 : S512x50.Slices ![0, 9] S512x1
  slices_S512x50_o0_10_S512x1 : S512x50.Slices ![0, 10] S512x1
  slices_S512x50_o0_11_S512x1 : S512x50.Slices ![0, 11] S512x1
  slices_S512x50_o0_12_S512x1 : S512x50.Slices ![0, 12] S512x1
  slices_S512x50_o0_13_S512x1 : S512x50.Slices ![0, 13] S512x1
  slices_S512x50_o0_14_S512x1 : S512x50.Slices ![0, 14] S512x1
  slices_S512x50_o0_15_S512x1 : S512x50.Slices ![0, 15] S512x1
  slices_S512x50_o0_16_S512x1 : S512x50.Slices ![0, 16] S512x1
  slices_S512x50_o0_17_S512x1 : S512x50.Slices ![0, 17] S512x1
  slices_S512x50_o0_18_S512x1 : S512x50.Slices ![0, 18] S512x1
  slices_S512x50_o0_19_S512x1 : S512x50.Slices ![0, 19] S512x1
  slices_S512x50_o0_20_S512x1 : S512x50.Slices ![0, 20] S512x1
  slices_S512x50_o0_21_S512x1 : S512x50.Slices ![0, 21] S512x1
  slices_S512x50_o0_22_S512x1 : S512x50.Slices ![0, 22] S512x1
  slices_S512x50_o0_23_S512x1 : S512x50.Slices ![0, 23] S512x1
  slices_S512x50_o0_24_S512x1 : S512x50.Slices ![0, 24] S512x1
  slices_S512x50_o0_25_S512x1 : S512x50.Slices ![0, 25] S512x1
  slices_S512x50_o0_26_S512x1 : S512x50.Slices ![0, 26] S512x1
  slices_S512x50_o0_27_S512x1 : S512x50.Slices ![0, 27] S512x1
  slices_S512x50_o0_28_S512x1 : S512x50.Slices ![0, 28] S512x1
  slices_S512x50_o0_29_S512x1 : S512x50.Slices ![0, 29] S512x1
  slices_S512x50_o0_30_S512x1 : S512x50.Slices ![0, 30] S512x1
  slices_S512x50_o0_31_S512x1 : S512x50.Slices ![0, 31] S512x1
  slices_S512x50_o0_32_S512x1 : S512x50.Slices ![0, 32] S512x1
  slices_S512x50_o0_33_S512x1 : S512x50.Slices ![0, 33] S512x1
  slices_S512x50_o0_34_S512x1 : S512x50.Slices ![0, 34] S512x1
  slices_S512x50_o0_35_S512x1 : S512x50.Slices ![0, 35] S512x1
  slices_S512x50_o0_36_S512x1 : S512x50.Slices ![0, 36] S512x1
  slices_S512x50_o0_37_S512x1 : S512x50.Slices ![0, 37] S512x1
  slices_S512x50_o0_38_S512x1 : S512x50.Slices ![0, 38] S512x1
  slices_S512x50_o0_39_S512x1 : S512x50.Slices ![0, 39] S512x1
  slices_S512x50_o0_40_S512x1 : S512x50.Slices ![0, 40] S512x1
  slices_S512x50_o0_41_S512x1 : S512x50.Slices ![0, 41] S512x1
  slices_S512x50_o0_42_S512x1 : S512x50.Slices ![0, 42] S512x1
  slices_S512x50_o0_43_S512x1 : S512x50.Slices ![0, 43] S512x1
  slices_S512x50_o0_44_S512x1 : S512x50.Slices ![0, 44] S512x1
  slices_S512x50_o0_45_S512x1 : S512x50.Slices ![0, 45] S512x1
  slices_S512x50_o0_46_S512x1 : S512x50.Slices ![0, 46] S512x1
  slices_S512x50_o0_47_S512x1 : S512x50.Slices ![0, 47] S512x1
  slices_S512x50_o0_48_S512x1 : S512x50.Slices ![0, 48] S512x1
  slices_S512x50_o0_49_S512x1 : S512x50.Slices ![0, 49] S512x1
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  slices_S1024x100352_S1024x100000_0_0 : S1024x100352.Slices ![0, 0] S1024x100000
  shapeCasts_S1x1_S_ : S1x1.ShapeCasts S_
  gather_S100000x64_S1024x1_S1024x64_1_0_n_n_0_1_164_wf : GatherDims.WF S100000x64 S1024x1 S1024x64 [1] [0] [] [0] [] 1 ![1, 64]
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S1024x64.size a
  hwx0_0 : ∀ i : grid0.Coords, EltTy.bits .f32 = 32 ∨ (Rect.block (s := S1024x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S100352x64.size a
  hwx0_1 : ∀ i : grid0.Coords, EltTy.bits .f32 = 32 ∨ (Rect.block (s := S100352x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x50.size a ≤ S1024x50.size a
  hwx0_2 : ∀ i : grid0.Coords, EltTy.bits .i32 = 32 ∨ (Rect.block (s := S1024x50) S512x50.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x100352.size a
  hwx0_3 : ∀ i : grid0.Coords, EltTy.bits .f32 = 32 ∨ (Rect.block (s := S1024x100352) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v6) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S1024 : Shape := ⟨1, ![1024]⟩
abbrev S1024x50 : Shape := ⟨2, ![1024, 50]⟩
abbrev S_ : Shape := ⟨0, ![]⟩
abbrev S1024x1 : Shape := ⟨2, ![1024, 1]⟩
abbrev S1024x64 : Shape := ⟨2, ![1024, 64]⟩
abbrev S64x100000 : Shape := ⟨2, ![64, 100000]⟩
abbrev S1024x100000 : Shape := ⟨2, ![1024, 100000]⟩
abbrev S1024x50x1 : Shape := ⟨3, ![1024, 50, 1]⟩
abbrev S1024x50x2 : Shape := ⟨3, ![1024, 50, 2]⟩

abbrev nBuf : Space → Nat
  | .hbm => 48
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1024, .i32⟩
  | .hbm, ⟨3, _⟩ => ⟨S1024x50, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x64, .f32⟩
  | .hbm, ⟨13, _⟩ => ⟨S64x100000, .f32⟩
  | .hbm, ⟨14, _⟩ => ⟨S1024x100000, .f32⟩
  | .hbm, ⟨15, _⟩ => ⟨S1024, .i32⟩
  | .hbm, ⟨16, _⟩ => ⟨S1024x1, .i32⟩
  | .hbm, ⟨17, _⟩ => ⟨S_, .i1⟩
  | .hbm, ⟨18, _⟩ => ⟨S1024x100000, .i1⟩
  | .hbm, ⟨19, _⟩ => ⟨S_, .i32⟩
  | .hbm, ⟨20, _⟩ => ⟨S1024x1, .i32⟩
  | .hbm, ⟨21, _⟩ => ⟨S1024x1, .i1⟩
  | .hbm, ⟨22, _⟩ => ⟨S_, .i32⟩
  | .hbm, ⟨23, _⟩ => ⟨S1024x1, .i32⟩
  | .hbm, ⟨24, _⟩ => ⟨S1024x1, .i32⟩
  | .hbm, ⟨25, _⟩ => ⟨S1024x1, .i32⟩
  | .hbm, ⟨26, _⟩ => ⟨S_, .i32⟩
  | .hbm, ⟨27, _⟩ => ⟨S1024x50, .i32⟩
  | .hbm, ⟨28, _⟩ => ⟨S1024x50, .i1⟩
  | .hbm, ⟨29, _⟩ => ⟨S_, .i32⟩
  | .hbm, ⟨30, _⟩ => ⟨S1024x50, .i32⟩
  | .hbm, ⟨31, _⟩ => ⟨S1024x50, .i32⟩
  | .hbm, ⟨32, _⟩ => ⟨S1024x50, .i32⟩
  | .hbm, ⟨33, _⟩ => ⟨S1024x50, .i32⟩
  | .hbm, ⟨34, _⟩ => ⟨S1024x50x1, .i32⟩
  | .hbm, ⟨35, _⟩ => ⟨S1024x50x1, .i32⟩
  | .hbm, ⟨36, _⟩ => ⟨S1024x50x2, .i32⟩
  | .hbm, ⟨37, _⟩ => ⟨S_, .i1⟩
  | .hbm, ⟨38, _⟩ => ⟨S1024x50, .i1⟩
  | .hbm, ⟨39, _⟩ => ⟨S1024x100000, .i1⟩
  | .hbm, ⟨40, _⟩ => ⟨S_, .f32⟩
  | .hbm, ⟨41, _⟩ => ⟨S1024x100000, .f32⟩
  | .hbm, ⟨42, _⟩ => ⟨S1024x100000, .f32⟩
  | .hbm, ⟨43, _⟩ => ⟨S1024x100000, .f32⟩
  | .hbm, ⟨44, _⟩ => ⟨S1024x100000, .f32⟩
  | .hbm, ⟨45, _⟩ => ⟨S1024x100000, .f32⟩
  | .hbm, ⟨46, _⟩ => ⟨S_, .f32⟩
  | .hbm, ⟨47, _⟩ => ⟨S_, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S100000x64_S64x100000_1_0 : S100000x64.Transposes [1, 0] S64x100000
  bcast_S_S1024x100000 : S_.BroadcastsInDim S1024x100000 (![] : Fin 0 → Fin S1024x100000.rank)
  bcast_S_S1024x1 : S_.BroadcastsInDim S1024x1 (![] : Fin 0 → Fin S1024x1.rank)
  bcast_S_S1024x50 : S_.BroadcastsInDim S1024x50 (![] : Fin 0 → Fin S1024x50.rank)
  bcast_S1024x1_S1024x50_0_1 : S1024x1.BroadcastsInDim S1024x50 (![0, 1] : Fin 2 → Fin S1024x50.rank)
  bcast_S1024x50_S1024x50x1_0_1 : S1024x50.BroadcastsInDim S1024x50x1 (![0, 1] : Fin 2 → Fin S1024x50x1.rank)
  concatenates_S1024x50x1_S1024x50x1_S1024x50x2_d2 : Shape.Concatenates [S1024x50x1, S1024x50x1] S1024x50x2 2
  reducesTo_S1024x100000_S_d0_1 : S1024x100000.ReducesTo [0, 1] S_
  h_S_ : 0 < S_.numel
  gather_S100000x64_S1024x1_S1024x64_1_0_n_n_0_1_164_wf : GatherDims.WF S100000x64 S1024x1 S1024x64 [1] [0] [] [0] [] 1 ![1, 64]
  dot_S1024x64_S64x100000_S1024x100000_1_0_0_1_n_n_wf : DotDims.WF S1024x64 S64x100000 S1024x100000 [1] [0] [0] [1] [] []
  scatter_S1024x100000_S1024x50x2_S1024x50_n_01_01_2_wf : ScatterDims.WF S1024x100000 S1024x50x2 S1024x50 [] [0, 1] [0, 1] 2

variable [Facts₀]

def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def scatter_S1024x100000_S1024x50x2_S1024x50_n_01_01_2 : ScatterDims S1024x100000 S1024x50x2 S1024x50 where
  updateWindowDims := []
  insertedWindowDims := [0, 1]
  scatterDimsToOperandDims := [0, 1]
  indexVectorDim := 2
  wf := scatter_S1024x100000_S1024x50x2_S1024x50_n_01_01_2_wf

class Facts : Prop extends Facts₀ where

variable [Facts]
-- ==== Proof.WordFacts.lean ====
/-
  INDEX WORDS. A 32-bit word used as a column number: what the two signed comparisons "w ≥ 0" and "w < 100000"
  say of it as an integer, that wrapping a word already known non-negative leaves it alone, and that
  a word equals the word of a small natural number exactly when its signed value is that number.
-/
import Idealize.ShloMosaic.PureOps
import Idealize.ShloMosaic.Lib.StableHlo.Predicate

namespace MFLoss.Word

open Idealize.ShloMosaic

theorem ofBool_eq_one (b : Bool) : BitVec.ofBool b = 1#1 ↔ b = true := by cases b <;> decide

/-- A word that compares ≥ 0 and < 100000, signed, is an integer of [0, 100000). -/
theorem range_of_cmp (w : BitVec 32) (h0 : IntOp.cmpi .sge w 0#32 = 1#1) (h1 : IntOp.cmpi .slt w 100000#32 = 1#1) :
    0 ≤ w.toInt ∧ w.toInt < 100000 := by
  unfold IntOp.cmpi at h0 h1
  rw [ofBool_eq_one] at h0 h1
  simp only [BitVec.slt, BitVec.sle, decide_eq_true_eq] at h0 h1
  have e0 : (0#32 : BitVec 32).toInt = 0 := by decide
  have e1 : (100000#32 : BitVec 32).toInt = 100000 := by decide
  rw [e0] at h0; rw [e1] at h1
  exact ⟨h0, h1⟩

/-- A non-negative word does not compare < 0. -/
theorem slt_zero_of_nonneg (w : BitVec 32) (h : 0 ≤ w.toInt) : IntOp.cmpi .slt w 0#32 = 0#1 := by
  unfold IntOp.cmpi
  have e0 : (0#32 : BitVec 32).toInt = 0 := by decide
  have : BitVec.slt w 0#32 = false := by
    simp only [BitVec.slt, decide_eq_false_iff_not, e0]; omega
  rw [this]; rfl

/-- A word is the word of the natural number c < 2^31 exactly when its signed value is c. -/
theorem eq_ofNat_iff_toInt (w : BitVec 32) (c : ℕ) (hc : c < 2 ^ 31) : w = BitVec.ofNat 32 c ↔ w.toInt = (c : ℤ) := by
  constructor
  · intro h; subst h
    exact StableHlo.Predicate.toInt_ofNat_small c hc
  · intro h
    apply BitVec.eq_of_toInt_eq
    rw [h, StableHlo.Predicate.toInt_ofNat_small c hc]

end MFLoss.Word
-- ==== Proof.PreDecode.lean ====
/-
  THE PRECONDITION, READ. The stated precondition is one bit: the conjunction of "every entry of the two tables is
  finite", "every history word is ≥ 0" and "every history word is < 100000", each an all-reduction of an entrywise
  comparison. When the bit is set, every history word is an integer of [0, 100000).
-/
import proofs.«416926_j9612136808809_1_alg».proof.Pre_finite_inputs
import proofs.«416926_j9612136808809_1_alg».proof.Proof.WordFacts
import Idealize.ShloMosaic.Lib.ReduceAll
import Idealize.ShloMosaic.Lib.ValueIdx

noncomputable section

namespace MFLoss.Pre

open Idealize.ShloMosaic Cert.Pre_finite_inputs

instance : Subsingleton S_.Idx := ⟨fun a b => funext fun d => d.elim0⟩

/-- Under the precondition every history word, read signed, lies in [0, 100000). -/
theorem seq_range {F : FTy → Type} [FloatOps F] [Cert.Pre_finite_inputs.Facts]
    (a0 a1 : FVec F S100000x64 .f32) (a2 : IVec S1024 32) (seq : IVec S1024x50 32)
    (h : Cert.Pre_finite_inputs.fn (F := F) a0 a1 a2 seq = fun _ => 1#1) (i : S1024x50.Idx) :
    0 ≤ (seq i).toInt ∧ (seq i).toInt < 100000 := by
  have e := congrFun h ValueIdx.ix0
  unfold Cert.Pre_finite_inputs.fn Cert.Pre_finite_inputs.fn_part1 at e
  dsimp only at e
  simp only [andi, IntOp.andi_eq_one] at e
  obtain ⟨⟨-, h11⟩, h15⟩ := e
  have g0 := Host.reduce_andi_all _ _ _ _ _ h11 i
  have g1 := Host.reduce_andi_all _ _ _ _ _ h15 i
  exact MFLoss.Word.range_of_cmp (seq i) g0 g1

end MFLoss.Pre

end
-- ==== Proof.Spec.lean ====
/-
  WHAT BOTH PROGRAMS COMPUTE, as functions of the arrays, over the extended reals.
  A user row r (64 numbers) is scored against item c by the inner product of the two rows. Item c is a POSITIVE of
  row r when one of the row's 50 history words, read as a signed integer, is c. The loss adds, over all rows and all
  100000 items, (score − 1)² at the positives and score² elsewhere.
-/
import Idealize.ShloMosaic.Lib.ValueIdx
import Idealize.ShloMosaic.PureOps.Ideal

noncomputable section

open scoped BigOperators

namespace MFLoss

open Idealize.ShloMosaic Idealize.ShloMosaic.ValueIdx

abbrev SSel : Shape := ⟨2, ![1024, 64]⟩
abbrev SItem : Shape := ⟨2, ![100000, 64]⟩
abbrev SSeq : Shape := ⟨2, ![1024, 50]⟩

/-- The score of user row `r` against item `c`: the inner product of the two rows. -/
def score (sel : SSel.Idx → EReal) (item : SItem.Idx → EReal) (r : Fin 1024) (c : Fin 100000) : EReal :=
  ∑ k : Fin 64, sel (ix2 r k) * item (ix2 c k)

/-- Column number `c` is among row `r`'s history words (read signed). -/
def hit (seq : SSeq.Idx → BitVec 32) (r : Fin 1024) (c : ℕ) : Prop :=
  ∃ k : Fin 50, (seq (ix2 r k)).toInt = (c : ℤ)

/-- One entry's contribution: the squared distance of the score from `one` at a positive, from 0 elsewhere. -/
def sq (one : EReal) (b : Prop) [Decidable b] (s : EReal) : EReal :=
  if b then (s - one) * (s - one) else s * s

open Classical in
/-- The contribution of entry (r, c). -/
def term (one : EReal) (sel : SSel.Idx → EReal) (item : SItem.Idx → EReal) (seq : SSeq.Idx → BitVec 32)
    (r : Fin 1024) (c : Fin 100000) : EReal :=
  sq one (hit seq r c.val) (score sel item r c)

/-- The loss: all contributions added. -/
def loss (one : EReal) (sel : SSel.Idx → EReal) (item : SItem.Idx → EReal) (seq : SSeq.Idx → BitVec 32) : EReal :=
  ∑ r : Fin 1024, ∑ c : Fin 100000, term one sel item seq r c

end MFLoss

end
-- ==== Proof.LibIndexedRows.lean ====
/-
  ROWS BY INDEX. jnp's `x[idx]` over the rows of a matrix and its transpose, the segment sum `zeros.at[idx].add(v)`,
  print as a `stablehlo.gather` / `stablehlo.scatter` whose start indices are an [E × 1] column of row numbers. This
  file reads both at ONE element, at any extents: the gather's element (e, k) is the table's row `clamp (idx e)` at
  column k; the accumulating scatter's element (n, k) is the operand's plus the sum of the updates (e, k) over the
  positions e whose index, read signed, is n (an index outside [0, N) lands nowhere). The rank-1 scatter (a count
  or a sum of scalars per segment) is read the same way.
-/
import Idealize.ShloMosaic.Lib.ValueIdx
import Idealize.ShloMosaic.PureOps.Contract

noncomputable section

open scoped BigOperators

namespace Idealize.ShloMosaic.IndexedRows

open Idealize.ShloMosaic Idealize.ShloMosaic.ValueIdx

/-! ## Lists of axes with one entry -/

/-- A list with the one entry `x` reads `x` at every position it has. -/
theorem getElem_of_eq_singleton {α : Type} {l : List α} {x : α} (hl : l = [x]) (i : Nat) (h : i < l.length) : l[i] = x := by
  subst hl
  have hi : i = 0 := by simpa using h
  subst hi; rfl

/-- Of a rank-2 shape's two axes, the ones other than axis 0 are axis 1 alone. -/
theorem kept_zero (f : Fin 2 → Nat) : Shape.kept ⟨2, f⟩ [0] = [1] := by
  show (List.finRange 2).filter (· ∉ ([0] : List (Fin 2))) = [1]
  decide

/-- Of a rank-2 shape's two axes, the ones other than axis 1 are axis 0 alone. -/
theorem kept_one (f : Fin 2 → Nat) : Shape.kept ⟨2, f⟩ [1] = [0] := by
  show (List.finRange 2).filter (· ∉ ([1] : List (Fin 2))) = [0]
  decide

/-- A rank-2 index read at an axis that is axis 0 has the value of its first coordinate. -/
theorem val_at_zero {n0 n1 : Nat} (j : (⟨2, ![n0, n1]⟩ : Shape).Idx) (X : Fin 2) (hX : X = 0) : (j X).val = (j 0).val := by
  subst hX; rfl

/-- A rank-2 index read at an axis that is axis 1 has the value of its second coordinate. -/
theorem val_at_one {n0 n1 : Nat} (j : (⟨2, ![n0, n1]⟩ : Shape).Idx) (X : Fin 2) (hX : X = 1) : (j X).val = (j 1).val := by
  subst hX; rfl

/-! ## Where an update lands, at any shapes -/

/-- An update lands at operand index `i` exactly when, on every axis, its start (read signed) plus its window
    coordinate is `i`'s coordinate: a sum that is negative or past the axis's size is no coordinate of any index. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg Fin.val (congrFun hf a)
      have h2 := (h a).1
      simp only at h1
      omega
    · intro hf
      funext a
      apply Fin.ext
      have h1 := hf a
      have h2 := (h a).1
      show (d.start j idx a + (d.window j a : ℤ)).toNat = (i a).val
      omega
  · rename_i h
    constructor
    · intro hf; exact absurd hf (by simp)
    · intro hf
      exfalso; apply h; intro a
      have h1 := hf a
      have h2 := (i a).isLt
      omega

/-! ## The scatter over rows -/

section ScatterRows
variable {N D E w : Nat} (d : ScatterDims ⟨2, ![N, D]⟩ ⟨2, ![E, 1]⟩ ⟨2, ![E, D]⟩)

/-- The scatter-indices position update (e, k') reads its one start component at: row e of the column. -/
theorem siIdx_rows (huw : d.updateWindowDims = [1]) (hivd : d.indexVectorDim = 1)
    (j : (⟨2, ![E, D]⟩ : Shape).Idx) (c : Fin d.scatterDimsToOperandDims.length) (hc : c.val = 0) :
    d.siIdx j c = ix2 (j 0) 0 := by
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; exact kept_one _
    exact val_at_zero j _ (getElem_of_eq_singleton hus _ _)
  | ⟨1, _⟩ =>
    unfold ScatterDims.siIdx
    rw [dif_pos (by rw [hivd])]
    apply Fin.ext
    exact hc

/-- On the row axis an update's start is its position's index word, read signed. -/
theorem start_row (huw : d.updateWindowDims = [1]) (hsd : d.scatterDimsToOperandDims = [0]) (hivd : d.indexVectorDim = 1)
    (j : (⟨2, ![E, D]⟩ : Shape).Idx) (idx : IVec ⟨2, ![E, 1]⟩ w) :
    d.start j idx 0 = (idx (ix2 (j 0) 0)).toInt := by
  have hm : (0 : Fin 2) ∈ d.scatterDimsToOperandDims := by rw [hsd]; exact List.mem_singleton.mpr rfl
  unfold ScatterDims.start
  rw [dif_pos hm, siIdx_rows d huw hivd j _ (by
    show List.idxOf (0 : Fin 2) d.scatterDimsToOperandDims = 0
    rw [hsd]; simp)]
  rfl

/-- On the column axis an update's start is 0: the start index names the row axis only. -/
theorem start_col (hsd : d.scatterDimsToOperandDims = [0]) (j : (⟨2, ![E, D]⟩ : Shape).Idx) (idx : IVec ⟨2, ![E, 1]⟩ w) :
    d.start j idx 1 = 0 := by
  have hm : (1 : Fin 2) ∉ d.scatterDimsToOperandDims := by
    rw [hsd]; show (1 : Fin 2) ∉ ([0] : List (Fin 2)); decide
  unfold ScatterDims.start
  rw [dif_neg hm]

/-- On the row axis an update's window coordinate is 0: the row axis is inserted. -/
theorem window_row (hiw : d.insertedWindowDims = [0]) (j : (⟨2, ![E, D]⟩ : Shape).Idx) : d.window j 0 = 0 := by
  have hm : (0 : Fin 2) ∉ d.sKept := by
    show (0 : Fin 2) ∉ Shape.kept _ d.insertedWindowDims
    rw [hiw, kept_zero]; show (0 : Fin 2) ∉ ([1] : List (Fin 2)); decide
  unfold ScatterDims.window
  rw [dif_neg hm]

/-- On the column axis an update's window coordinate is its own column. -/
theorem window_col (huw : d.updateWindowDims = [1]) (hiw : d.insertedWindowDims = [0]) (j : (⟨2, ![E, D]⟩ : Shape).Idx) :
    d.window j 1 = (j 1).val := by
  have hm : (1 : Fin 2) ∈ d.sKept := by
    show (1 : Fin 2) ∈ Shape.kept _ d.insertedWindowDims
    rw [hiw, kept_zero]; exact List.mem_singleton.mpr rfl
  unfold ScatterDims.window
  rw [dif_pos hm]
  exact val_at_one j _ (getElem_of_eq_singleton huw _ _)

/-- WHERE A ROW UPDATE LANDS. Update (e, k') lands at operand element (n, k) exactly when position e's index word, read
    signed, is n, and k' is k: the column is carried over unchanged and is always inside, so only the row can miss. -/
theorem resultIdx?_rows (huw : d.updateWindowDims = [1]) (hiw : d.insertedWindowDims = [0])
    (hsd : d.scatterDimsToOperandDims = [0]) (hivd : d.indexVectorDim = 1) (idx : IVec ⟨2, ![E, 1]⟩ w)
    (e : Fin E) (k' : Fin D) (n : Fin N) (k : Fin D) :
    d.resultIdx? (ix2 e k') idx = some (ix2 n k) ↔ (idx (ix2 e 0)).toInt = (n.val : ℤ) ∧ k' = k := by
  rw [resultIdx?_eq_some_iff, Fin.forall_fin_two, start_row d huw hsd hivd, start_col d hsd, window_row d hiw,
    window_col d huw hiw]
  show (idx (ix2 e 0)).toInt + ((0 : ℕ) : ℤ) = (n.val : ℤ) ∧ (0 : ℤ) + ((k'.val : ℕ) : ℤ) = (k.val : ℤ) ↔ _
  rw [Fin.ext_iff]
  omega

/-- THE SEGMENT SUM OVER ROWS, at the ideal instance: element (n, k) of the accumulating scatter is the operand's plus the
    sum of the updates (e, k) over the positions e whose index word, read signed, is n. -/
theorem scatterAdd_rows (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![E, 1]⟩ w) (upd : (⟨2, ![E, D]⟩ : Shape).Idx → EReal)
    (n : Fin N) (k : Fin D) :
    Ideal.hostScatterAdd d x idx upd (ix2 n k)
      = x (ix2 n k) + ∑ e ∈ Finset.univ.filter (fun e : Fin E => (idx (ix2 e 0)).toInt = (n.val : ℤ)), upd (ix2 e k) := by
  unfold Ideal.hostScatterAdd
  congr 1
  have hP : ∀ j : (⟨2, ![E, D]⟩ : Shape).Idx,
      d.resultIdx? j idx = some (ix2 n k) ↔ (idx (ix2 (j 0) 0)).toInt = (n.val : ℤ) ∧ j 1 = k := fun j => by
    conv_lhs => rw [eq_ix2 j]
    exact resultIdx?_rows d huw hiw hsd hivd idx (j 0) (j 1) n k
  refine Finset.sum_bij' (fun j _ => j 0) (fun e _ => ix2 e k) ?_ ?_ ?_ ?_ ?_
  · intro j hj
    exact Finset.mem_filter.2 ⟨Finset.mem_univ _, ((hP j).1 (Finset.mem_filter.1 hj).2).1⟩
  · intro e he
    exact Finset.mem_filter.2 ⟨Finset.mem_univ _, (hP _).2 ⟨(Finset.mem_filter.1 he).2, rfl⟩⟩
  · intro j hj
    have hk := ((hP j).1 (Finset.mem_filter.1 hj).2).2
    rw [← hk]; exact (eq_ix2 j).symm
  · intro e _; rfl
  · intro j hj
    have hk := ((hP j).1 (Finset.mem_filter.1 hj).2).2
    rw [← hk]; exact congrArg upd (eq_ix2 j)

/-- The same at the operator a program prints, `Host.scatterAdd` read at the ideal instance. -/
theorem host_scatterAdd_rows {φ : FTy} (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![E, 1]⟩ w) (upd : FVec Ideal ⟨2, ![E, D]⟩ φ) (n : Fin N) (k : Fin D) :
    Host.scatterAdd (F := Ideal) d x idx upd (ix2 n k)
      = x (ix2 n k) + ∑ e ∈ Finset.univ.filter (fun e : Fin E => (idx (ix2 e 0)).toInt = (n.val : ℤ)), upd (ix2 e k) :=
  scatterAdd_rows d huw hiw hsd hivd x idx upd n k

end ScatterRows

/-! ## The scatter over a vector's entries -/

section ScatterVec
variable {N E w : Nat} (d : ScatterDims ⟨1, ![N]⟩ ⟨2, ![E, 1]⟩ ⟨1, ![E]⟩)

/-- Of a rank-1 shape's one axis, none is left other than axis 0. -/
theorem kept_only (f : Fin 1 → Nat) : Shape.kept ⟨1, f⟩ [0] = [] := by
  show (List.finRange 1).filter (· ∉ ([0] : List (Fin 1))) = []
  decide

/-- A rank-1 index read at any axis has the value of its one coordinate. -/
theorem val_at_only {n0 : Nat} (j : (⟨1, ![n0]⟩ : Shape).Idx) (X : Fin 1) : (j X).val = (j 0).val := by
  obtain rfl : X = 0 := Subsingleton.elim _ _
  rfl

/-- The scatter-indices position update e reads its one start component at: row e of the column. -/
theorem siIdx_vec (hivd : d.indexVectorDim = 1) (j : (⟨1, ![E]⟩ : Shape).Idx)
    (c : Fin d.scatterDimsToOperandDims.length) (hc : c.val = 0) : d.siIdx j c = ix2 (j 0) 0 := by
  funext b
  match b with
  | ⟨0, _⟩ =>
    unfold ScatterDims.siIdx
    rw [dif_neg (by rw [hivd]; simp)]
    unfold ScatterDims.siCoord
    apply Fin.ext
    simp only [Fin.val_cast]
    exact val_at_only j _
  | ⟨1, _⟩ =>
    unfold ScatterDims.siIdx
    rw [dif_pos (by rw [hivd])]
    apply Fin.ext
    exact hc

/-- An entry update's start is its position's index word, read signed. -/
theorem start_vec (hsd : d.scatterDimsToOperandDims = [0]) (hivd : d.indexVectorDim = 1)
    (j : (⟨1, ![E]⟩ : Shape).Idx) (idx : IVec ⟨2, ![E, 1]⟩ w) :
    d.start j idx 0 = (idx (ix2 (j 0) 0)).toInt := by
  have hm : (0 : Fin 1) ∈ d.scatterDimsToOperandDims := by rw [hsd]; exact List.mem_singleton.mpr rfl
  unfold ScatterDims.start
  rw [dif_pos hm, siIdx_vec d hivd j _ (by
    show List.idxOf (0 : Fin 1) d.scatterDimsToOperandDims = 0
    rw [hsd]; simp)]
  rfl

/-- An entry update has no window: its window coordinate is 0. -/
theorem window_vec (hiw : d.insertedWindowDims = [0]) (j : (⟨1, ![E]⟩ : Shape).Idx) : d.window j 0 = 0 := by
  have hm : (0 : Fin 1) ∉ d.sKept := by
    show (0 : Fin 1) ∉ Shape.kept _ d.insertedWindowDims
    rw [hiw, kept_only]; exact List.not_mem_nil
  unfold ScatterDims.window
  rw [dif_neg hm]

/-- WHERE AN ENTRY UPDATE LANDS. Update e lands at operand entry n exactly when position e's index word, read signed, is n. -/
theorem resultIdx?_vec (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e 0)).toInt = (n.val : ℤ) := by
  rw [resultIdx?_eq_some_iff, Fin.forall_fin_one, start_vec d hsd hivd, window_vec d hiw]
  show (idx (ix2 e 0)).toInt + ((0 : ℕ) : ℤ) = (n.val : ℤ) ↔ _
  omega

/-- THE SEGMENT SUM OF SCALARS (a count, when the updates are ones), at the ideal instance: entry n of the accumulating
    scatter is the operand's plus the sum of the updates e over the positions e whose index word, read signed, is n. -/
theorem scatterAdd_vec (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e ∈ Finset.univ.filter (fun e : Fin E => (idx (ix2 e 0)).toInt = (n.val : ℤ)), upd (ix1 e) := by
  unfold Ideal.hostScatterAdd
  congr 1
  have hP : ∀ j : (⟨1, ![E]⟩ : Shape).Idx,
      d.resultIdx? j idx = some (ix1 n) ↔ (idx (ix2 (j 0) 0)).toInt = (n.val : ℤ) := fun j => by
    conv_lhs => rw [eq_ix1 j]
    exact resultIdx?_vec d hiw hsd hivd idx (j 0) n
  refine Finset.sum_bij' (fun j _ => j 0) (fun e _ => ix1 e) ?_ ?_ ?_ ?_ ?_
  · intro j hj
    exact Finset.mem_filter.2 ⟨Finset.mem_univ _, (hP j).1 (Finset.mem_filter.1 hj).2⟩
  · intro e he
    exact Finset.mem_filter.2 ⟨Finset.mem_univ _, (hP _).2 (Finset.mem_filter.1 he).2⟩
  · intro j _; exact (eq_ix1 j).symm
  · intro e _; rfl
  · intro j _; exact congrArg upd (eq_ix1 j)

/-- The same at the operator a program prints, `Host.scatterAdd` read at the ideal instance. -/
theorem host_scatterAdd_vec {φ : FTy} (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n.val : ℤ)), upd (ix1 e) :=
  scatterAdd_vec d hiw hsd hivd x idx upd n

end ScatterVec

/-! ## The gather of rows -/

section GatherRows
variable {α : Type} {N D E w : Nat} (d : GatherDims ⟨2, ![N, D]⟩ ⟨2, ![E, 1]⟩ ⟨2, ![E, D]⟩)

/-- The start-indices position result element (e, k) reads its one start component at: row e of the column. -/
theorem gather_siIdx_rows (hoff : d.offsetDims = [1]) (hivd : d.indexVectorDim = 1)
    (j : (⟨2, ![E, D]⟩ : Shape).Idx) (c : Fin d.startIndexMap.length) (hc : c.val = 0) :
    d.siIdx j c = ix2 (j 0) 0 := by
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show Shape.kept _ d.offsetDims = [0]
      rw [hoff]; exact kept_one _
    exact val_at_zero j _ (getElem_of_eq_singleton hbd _ _)
  | ⟨1, _⟩ =>
    unfold GatherDims.siIdx
    rw [dif_pos (by rw [hivd])]
    apply Fin.ext
    exact hc

/-- THE GATHER OF ROWS. jnp's `x[idx]` over the rows of an [N × D] table prints as a gather whose start indices are the
    [E × 1] column of row numbers, the row axis collapsed and start-indexed, the column axis the result's one offset axis
    at its full width, no batching axes, the index vector on axis 1. Result element (e, k) is the table at column k of the
    row position e names, its index word read SIGNED and CLAMPED into [0, N − 1]: a negative index reads row 0, one past
    the end reads the last row. -/
theorem gather_rows (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![E, 1]⟩ w) (e : Fin E) (k : Fin D) (hN : 0 < N) :
    Host.gather d x idx (ix2 e k) = x (ix2 ⟨min (idx (ix2 e 0)).toInt.toNat (N - 1), by omega⟩ k) := by
  unfold Host.gather
  congr 1
  funext a
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, gather_siIdx_rows d hoff hivd _ _ (by
      show List.idxOf (0 : Fin 2) d.startIndexMap = 0
      rw [hsim]; simp)]
    show min (idx (ix2 e 0)).toInt.toNat (N - d.sliceSizes 0) = min (idx (ix2 e 0)).toInt.toNat (N - 1)
    rw [hsl]
  | ⟨1, _⟩ =>
    apply Fin.ext
    have hk : (1 : Fin 2) ∈ d.sKept := by
      rw [GatherDims.mem_sKept, hcoll, hob]
      exact ⟨by show (1 : Fin 2) ∉ ([0] : List (Fin 2)); decide, List.not_mem_nil⟩
    have hm : (1 : Fin 2) ∉ d.startIndexMap := by
      rw [hsim]; show (1 : Fin 2) ∉ ([0] : List (Fin 2)); decide
    show d.start (ix2 e k) idx 1 + d.batchCoord (ix2 e k) 1 + d.offCoord (ix2 e k) 1 = k.val
    rw [GatherDims.batchCoord_eq_zero _ _ _ (hb 1)]
    unfold GatherDims.start GatherDims.offCoord
    rw [dif_neg hm, dif_pos hk]
    simp only [Nat.zero_add]
    exact val_at_one (ix2 e k) _ (getElem_of_eq_singleton hoff _ _)

end GatherRows

/-! ## Axiom pins -/

/-- info: 'Idealize.ShloMosaic.IndexedRows.resultIdx?_eq_some_iff' depends on axioms: [propext, Classical.choice, Quot.sound] -/
#guard_msgs (whitespace := lax) in #print axioms resultIdx?_eq_some_iff
/-- info: 'Idealize.ShloMosaic.IndexedRows.resultIdx?_rows' depends on axioms: [propext, Classical.choice, Quot.sound] -/
#guard_msgs (whitespace := lax) in #print axioms resultIdx?_rows
/-- info: 'Idealize.ShloMosaic.IndexedRows.scatterAdd_rows' depends on axioms: [propext, Classical.choice, Quot.sound] -/
#guard_msgs (whitespace := lax) in #print axioms scatterAdd_rows
/-- info: 'Idealize.ShloMosaic.IndexedRows.host_scatterAdd_rows' depends on axioms: [propext, Classical.choice, Quot.sound] -/
#guard_msgs (whitespace := lax) in #print axioms host_scatterAdd_rows
/-- info: 'Idealize.ShloMosaic.IndexedRows.resultIdx?_vec' depends on axioms: [propext, Classical.choice, Quot.sound] -/
#guard_msgs (whitespace := lax) in #print axioms resultIdx?_vec
/-- info: 'Idealize.ShloMosaic.IndexedRows.scatterAdd_vec' depends on axioms: [propext, Classical.choice, Quot.sound] -/
#guard_msgs (whitespace := lax) in #print axioms scatterAdd_vec
/-- info: 'Idealize.ShloMosaic.IndexedRows.host_scatterAdd_vec' depends on axioms: [propext, Classical.choice, Quot.sound] -/
#guard_msgs (whitespace := lax) in #print axioms host_scatterAdd_vec
/-- info: 'Idealize.ShloMosaic.IndexedRows.gather_rows' depends on axioms: [propext, Classical.choice, Quot.sound] -/
#guard_msgs (whitespace := lax) in #print axioms gather_rows

end Idealize.ShloMosaic.IndexedRows

end
-- ==== Proof.LibScatterPairs.lean ====
/-
  PAIRS BY INDEX. A scatter whose start indices are an [E × K × 2] array of (row, column) pairs, both axes of the
  [N × M] operand inserted and start-indexed, the update array [E × K] with no window axes, and whose body returns the
  update: the shape of a boolean mask that is set at a list of index pairs. This file reads that scatter at ONE element
  of the operand, at any extents: update (e, k) lands at (n, c) exactly when its pair, read signed, is (n, c); with one
  constant written into a constant operand, an element some pair names holds the written constant and every other
  element keeps the operand's.
-/
import Idealize.ShloMosaic.Lib.ValueIdx
import proofs.«416926_j9612136808809_1_alg».proof.Proof.LibIndexedRows

noncomputable section

namespace Idealize.ShloMosaic.ScatterPairs

open Idealize.ShloMosaic Idealize.ShloMosaic.ValueIdx

/-! ## A left fold of overwriting steps -/

section Fold
variable {ι β α : Type} (g : β → Option ι) (v : α) (st : (ι → α) → β → ι → α)

/-- A fold of steps, each of which writes `v` at the one place `g` names (or nowhere) and keeps the rest, leaves a place no
    step names as it started. -/
theorem foldl_no_hit (hoth : ∀ r m i i', g m = some i → i' ≠ i → st r m i' = r i') (hnone : ∀ r m, g m = none → st r m = r)
    (L : List β) (r0 : ι → α) (i' : ι) (h : ∀ m ∈ L, g m ≠ some i') : L.foldl st r0 i' = r0 i' := by
  induction L using List.reverseRecOn with
  | nil => rfl
  | append_singleton L m ih =>
    rw [List.foldl_append, List.foldl_cons, List.foldl_nil]
    have ih' := ih (fun m' hm' => h m' (List.mem_append_left _ hm'))
    have hm := h m (List.mem_append_right _ (List.mem_singleton_self m))
    cases hg : g m with
    | none => rw [hnone _ _ hg]; exact ih'
    | some i =>
      have hi : i' ≠ i := fun e => hm (by rw [hg, e])
      rw [hoth _ _ _ _ hg hi]; exact ih'

/-- The same fold leaves `v` at a place some step names: the last step that names it writes `v`, the later ones keep it. -/
theorem foldl_hit (hat : ∀ r m i, g m = some i → st r m i = v)
    (hoth : ∀ r m i i', g m = some i → i' ≠ i → st r m i' = r i') (hnone : ∀ r m, g m = none → st r m = r)
    (L : List β) (r0 : ι → α) (i' : ι) (h : ∃ m ∈ L, g m = some i') : L.foldl st r0 i' = v := by
  induction L using List.reverseRecOn with
  | nil => obtain ⟨m, hm, _⟩ := h; exact absurd hm List.not_mem_nil
  | append_singleton L m ih =>
    rw [List.foldl_append, List.foldl_cons, List.foldl_nil]
    cases hg : g m with
    | none =>
      rw [hnone _ _ hg]
      obtain ⟨m', hm', hgm'⟩ := h
      rcases List.mem_append.1 hm' with h1 | h1
      · exact ih ⟨m', h1, hgm'⟩
      · rw [List.mem_singleton.1 h1, hg] at hgm'; exact absurd hgm' (by simp)
    | some i =>
      by_cases hi : i' = i
      · rw [hi]; exact hat _ _ _ hg
      · rw [hoth _ _ _ _ hg hi]
        obtain ⟨m', hm', hgm'⟩ := h
        rcases List.mem_append.1 hm' with h1 | h1
        · exact ih ⟨m', h1, hgm'⟩
        · rw [List.mem_singleton.1 h1, hg] at hgm'
          exact absurd (Option.some.inj hgm').symm hi

end Fold

/-! ## Lists of axes with two entries -/

/-- A list with the two entries `x, y` reads `x` at position 0. -/
theorem getElem_pair_zero {α : Type} {l : List α} {x y : α} (hl : l = [x, y]) (i : Nat) (hi : i = 0) (h : i < l.length) :
    l[i] = x := by
  subst hl; subst hi; rfl

/-- A list with the two entries `x, y` reads `y` at position 1. -/
theorem getElem_pair_one {α : Type} {l : List α} {x y : α} (hl : l = [x, y]) (i : Nat) (hi : i = 1) (h : i < l.length) :
    l[i] = y := by
  subst hl; subst hi; rfl

/-- Of a rank-2 shape's two axes, with none taken out both are left, in order. -/
theorem kept_none (f : Fin 2 → Nat) : Shape.kept ⟨2, f⟩ [] = [0, 1] := by
  show (List.finRange 2).filter (· ∉ ([] : List (Fin 2))) = [0, 1]
  decide

/-- Of a rank-2 shape's two axes, with both taken out none is left. -/
theorem kept_both (f : Fin 2 → Nat) : Shape.kept ⟨2, f⟩ [0, 1] = [] := by
  show (List.finRange 2).filter (· ∉ ([0, 1] : List (Fin 2))) = []
  decide

/-! ## Where a pair update lands -/

section
variable {N M E K w : Nat} (d : ScatterDims ⟨2, ![N, M]⟩ ⟨3, ![E, K, 2]⟩ ⟨2, ![E, K]⟩)

/-- The index array's axes other than the pair axis are axes 0 and 1. -/
theorem siKept_pairs (hivd : d.indexVectorDim = 2) : d.siKept = [0, 1] := by
  show (List.finRange 3).filter (fun b : Fin 3 => decide (b.val ≠ d.indexVectorDim)) = [0, 1]
  rw [hivd]
  decide

/-- The index-array position update (e, k) reads component `c` of its pair at: (e, k, c). -/
theorem siIdx_pairs (huw : d.updateWindowDims = []) (hivd : d.indexVectorDim = 2)
    (j : (⟨2, ![E, K]⟩ : Shape).Idx) (c : Fin d.scatterDimsToOperandDims.length) (c2 : Fin 2) (hc : c.val = c2.val) :
    d.siIdx j c = ix3 (j 0) (j 1) c2 := by
  have hus : d.uScatter = [0, 1] := by
    show Shape.kept _ d.updateWindowDims = [0, 1]
    rw [huw]; exact kept_none _
  have hsk := siKept_pairs d hivd
  funext b
  match b with
  | ⟨0, _⟩ =>
    unfold ScatterDims.siIdx
    rw [dif_neg (by rw [hivd]; simp)]
    unfold ScatterDims.siCoord
    apply Fin.ext
    simp only [Fin.val_cast]
    exact IndexedRows.val_at_zero j _ (getElem_pair_zero hus _ (by rw [hsk]; rfl) _)
  | ⟨1, _⟩ =>
    unfold ScatterDims.siIdx
    rw [dif_neg (by rw [hivd]; simp)]
    unfold ScatterDims.siCoord
    apply Fin.ext
    simp only [Fin.val_cast]
    exact IndexedRows.val_at_one j _ (getElem_pair_one hus _ (by rw [hsk]; rfl) _)
  | ⟨2, _⟩ =>
    unfold ScatterDims.siIdx
    rw [dif_pos (by rw [hivd])]
    apply Fin.ext
    exact hc

/-- On the row axis an update's start is the first component of its pair, read signed. -/
theorem start_row (huw : d.updateWindowDims = []) (hsd : d.scatterDimsToOperandDims = [0, 1]) (hivd : d.indexVectorDim = 2)
    (j : (⟨2, ![E, K]⟩ : Shape).Idx) (idx : IVec ⟨3, ![E, K, 2]⟩ w) :
    d.start j idx 0 = (idx (ix3 (j 0) (j 1) 0)).toInt := by
  have hm : (0 : Fin 2) ∈ d.scatterDimsToOperandDims := by
    rw [hsd]; show (0 : Fin 2) ∈ ([0, 1] : List (Fin 2)); decide
  unfold ScatterDims.start
  rw [dif_pos hm, siIdx_pairs d huw hivd j _ 0 (by
    show List.idxOf (0 : Fin 2) d.scatterDimsToOperandDims = 0
    rw [hsd]; rfl)]
  rfl

/-- On the column axis an update's start is the second component of its pair, read signed. -/
theorem start_col (huw : d.updateWindowDims = []) (hsd : d.scatterDimsToOperandDims = [0, 1]) (hivd : d.indexVectorDim = 2)
    (j : (⟨2, ![E, K]⟩ : Shape).Idx) (idx : IVec ⟨3, ![E, K, 2]⟩ w) :
    d.start j idx 1 = (idx (ix3 (j 0) (j 1) 1)).toInt := by
  have hm : (1 : Fin 2) ∈ d.scatterDimsToOperandDims := by
    rw [hsd]; show (1 : Fin 2) ∈ ([0, 1] : List (Fin 2)); decide
  unfold ScatterDims.start
  rw [dif_pos hm, siIdx_pairs d huw hivd j _ 1 (by
    show List.idxOf (1 : Fin 2) d.scatterDimsToOperandDims = 1
    rw [hsd]; rfl)]
  rfl

/-- On both axes an update's window coordinate is 0: both operand axes are inserted. -/
theorem window_pairs (hiw : d.insertedWindowDims = [0, 1]) (j : (⟨2, ![E, K]⟩ : Shape).Idx) (a : Fin 2) :
    d.window j a = 0 := by
  have hm : a ∉ d.sKept := by
    show a ∉ Shape.kept _ d.insertedWindowDims
    rw [hiw, kept_both]; exact List.not_mem_nil
  unfold ScatterDims.window
  rw [dif_neg hm]

/-- Update (e, k) lands at operand element (n, c) exactly when its index pair, read signed, is (n, c). -/
theorem resultIdx?_pairs (huw : d.updateWindowDims = []) (hiw : d.insertedWindowDims = [0, 1])
    (hsd : d.scatterDimsToOperandDims = [0, 1]) (hivd : d.indexVectorDim = 2) (idx : IVec ⟨3, ![E, K, 2]⟩ w)
    (e : Fin E) (k : Fin K) (n : Fin N) (c : Fin M) :
    d.resultIdx? (ix2 e k) idx = some (ix2 n c) ↔
      (idx (ix3 e k 0)).toInt = (n.val : ℤ) ∧ (idx (ix3 e k 1)).toInt = (c.val : ℤ) := by
  rw [IndexedRows.resultIdx?_eq_some_iff, Fin.forall_fin_two, start_row d huw hsd hivd, start_col d huw hsd hivd,
    window_pairs d hiw, window_pairs d hiw]
  show (idx (ix3 e k 0)).toInt + ((0 : ℕ) : ℤ) = (n.val : ℤ) ∧ (idx (ix3 e k 1)).toInt + ((0 : ℕ) : ℤ) = (c.val : ℤ) ↔ _
  omega

/-- The same for an update index not yet split into its coordinates. -/
theorem resultIdx?_pairs' (huw : d.updateWindowDims = []) (hiw : d.insertedWindowDims = [0, 1])
    (hsd : d.scatterDimsToOperandDims = [0, 1]) (hivd : d.indexVectorDim = 2) (idx : IVec ⟨3, ![E, K, 2]⟩ w)
    (j : (⟨2, ![E, K]⟩ : Shape).Idx) (n : Fin N) (c : Fin M) :
    d.resultIdx? j idx = some (ix2 n c) ↔
      (idx (ix3 (j 0) (j 1) 0)).toInt = (n.val : ℤ) ∧ (idx (ix3 (j 0) (j 1) 1)).toInt = (c.val : ℤ) := by
  conv_lhs => rw [eq_ix2 j]
  exact resultIdx?_pairs d huw hiw hsd hivd idx (j 0) (j 1) n c

/-! ## The scatter of one constant -/

/-- Scattering one constant v (the body returns the update) into a constant operand x0: an element some update lands on
    holds v. -/
theorem scatter_const_of_hit {α : Type} (huw : d.updateWindowDims = []) (hiw : d.insertedWindowDims = [0, 1])
    (hsd : d.scatterDimsToOperandDims = [0, 1]) (hivd : d.indexVectorDim = 2) (x0 v : α) (idx : IVec ⟨3, ![E, K, 2]⟩ w)
    (n : Fin N) (c : Fin M)
    (h : ∃ (e : Fin E) (k : Fin K), (idx (ix3 e k 0)).toInt = (n.val : ℤ) ∧ (idx (ix3 e k 1)).toInt = (c.val : ℤ)) :
    Host.scatter d (fun _ b => b) (fun _ => x0) idx (fun _ => v) (ix2 n c) = v := by
  unfold Host.scatter
  refine foldl_hit (fun m => d.resultIdx? ((⟨2, ![E, K]⟩ : Shape).rowMajor.symm m) idx) v _ ?_ ?_ ?_ _ _ _ ?_
  · intro r m i hg
    simp only [hg]
    exact if_pos trivial
  · intro r m i i' hg hi
    simp only [hg]
    exact if_neg hi
  · intro r m hg
    simp only [hg]
  · obtain ⟨e, k, he⟩ := h
    refine ⟨(⟨2, ![E, K]⟩ : Shape).rowMajor (ix2 e k), List.mem_finRange _, ?_⟩
    show d.resultIdx? ((⟨2, ![E, K]⟩ : Shape).rowMajor.symm ((⟨2, ![E, K]⟩ : Shape).rowMajor (ix2 e k))) idx = _
    rw [Equiv.symm_apply_apply]
    exact (resultIdx?_pairs d huw hiw hsd hivd idx e k n c).2 he

/-- and an element no update lands on keeps x0. -/
theorem scatter_const_of_no_hit {α : Type} (huw : d.updateWindowDims = []) (hiw : d.insertedWindowDims = [0, 1])
    (hsd : d.scatterDimsToOperandDims = [0, 1]) (hivd : d.indexVectorDim = 2) (x0 v : α) (idx : IVec ⟨3, ![E, K, 2]⟩ w)
    (n : Fin N) (c : Fin M)
    (h : ¬ ∃ (e : Fin E) (k : Fin K), (idx (ix3 e k 0)).toInt = (n.val : ℤ) ∧ (idx (ix3 e k 1)).toInt = (c.val : ℤ)) :
    Host.scatter d (fun _ b => b) (fun _ => x0) idx (fun _ => v) (ix2 n c) = x0 := by
  unfold Host.scatter
  refine (foldl_no_hit (fun m => d.resultIdx? ((⟨2, ![E, K]⟩ : Shape).rowMajor.symm m) idx) _ ?_ ?_ _ _ _ ?_).trans rfl
  · intro r m i i' hg hi
    simp only [hg]
    exact if_neg hi
  · intro r m hg
    simp only [hg]
  · intro m _ hg
    exact h ⟨_, _, (resultIdx?_pairs' d huw hiw hsd hivd idx _ n c).1 hg⟩

end

/-! ## Axiom pins -/

/-- info: 'Idealize.ShloMosaic.ScatterPairs.resultIdx?_pairs' depends on axioms: [propext, Classical.choice, Quot.sound] -/
#guard_msgs (whitespace := lax) in #print axioms resultIdx?_pairs
/-- info: 'Idealize.ShloMosaic.ScatterPairs.scatter_const_of_hit' depends on axioms: [propext, Classical.choice, Quot.sound] -/
#guard_msgs (whitespace := lax) in #print axioms scatter_const_of_hit
/-- info: 'Idealize.ShloMosaic.ScatterPairs.scatter_const_of_no_hit' depends on axioms: [propext, Classical.choice, Quot.sound] -/
#guard_msgs (whitespace := lax) in #print axioms scatter_const_of_no_hit

end Idealize.ShloMosaic.ScatterPairs

end
-- ==== Proof.RefValue.lean ====
/-
  THE REFERENCE'S TWO RESULTS AS THE SPECIFICATION'S FUNCTIONS.
  The reference program scores every gathered user row against every item row (an inner product of 64 terms), builds
  a 1024 × 100000 mask of positives by writing "true" at the index pairs (row, history word), and adds, over the whole
  table, (score − 1)² where the mask is set and score² elsewhere, starting from the zero word's value.
  Here each of these is read at one index:
    * the score table at (r, c) is the specification's score of row r against item c;
    * the pair array holds, at (e, k), the pair (e, word k of row e) when every history word lies in [0, 100000):
      a row number is never negative, and a word in range is not wrapped;
    * so the mask is set at (r, c) exactly when c is one of row r's history words;
    * so the selected table at (r, c) is the specification's contribution of (r, c), and the total is its loss
      added to the starting value.
-/
import proofs.«416926_j9612136808809_1_alg».proof.Proof.RefRead
import proofs.«416926_j9612136808809_1_alg».proof.Proof.Spec
import proofs.«416926_j9612136808809_1_alg».proof.Proof.WordFacts
import proofs.«416926_j9612136808809_1_alg».proof.Proof.LibScatterPairs
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx MFLoss

/-! ## The score table -/

/-- entry (r, c) of the score table is the inner product of gathered user row r and item row c -/
theorem score_ref (x0 x1 : (⟨S100000x64, .f32⟩ : BufTy).Contents (Elt Ideal)) (x2 : (⟨S1024, .i32⟩ : BufTy).Contents (Elt Ideal))
    (r : Fin 1024) (c : Fin 100000) :
    val_main_v8 (F := Ideal) x0 x1 x2 (ix2 r c) = score (val_main_v6 (F := Ideal) x0 x2) x1 r c := by
  rw [val_main_v8_apply]
  unfold score
  refine Finset.sum_congr rfl fun k _ => ?_
  rw [val_main_v7_apply]
  have el : lidx_main_v8 (ix2 r c) k = ix2 r k :=
    funext fun a => Fin.ext (by match a with | ⟨0, _⟩ => rfl | ⟨1, _⟩ => rfl)
  have er : idx_main_v7 (ridx_main_v8 (ix2 r c) k) = ix2 c k :=
    funext fun a => Fin.ext (by match a with | ⟨0, _⟩ => rfl | ⟨1, _⟩ => rfl)
  rw [el, er]

/-! ## The index pairs -/

section Pairs
variable {F : FTy → Type} [FloatOps F]

/-- The table the mask starts from is "false" everywhere. -/
theorem v11_const : val_main_v11 (F := F) = fun _ => 0#1 :=
  funext fun i => by rw [val_main_v11_apply]; rfl

/-- The updates are "true" everywhere. -/
theorem v26_const : val_main_v26 (F := F) = fun _ => 1#1 :=
  funext fun i => by rw [val_main_v26_apply]; rfl

/-- The column of row numbers holds, at row e, the word of e. -/
theorem v10_eq (i : S1024x1.Idx) : val_main_v10 (F := F) i = BitVec.ofNat 32 (i 0).val := by
  rw [val_main_v10_apply, val_main_v9_apply]

/-- A row number is below 2³¹, so as a signed word it is itself. -/
theorem toInt_row (n : ℕ) (hn : n < 1024) : (BitVec.ofNat 32 n).toInt = (n : ℤ) :=
  StableHlo.Predicate.toInt_ofNat_small n (by omega)

/-- Wrapping the row numbers changes nothing: none is negative. -/
theorem v16_eq (i : S1024x1.Idx) : val_main_v16 (F := F) i = BitVec.ofNat 32 (i 0).val := by
  have hn : 0 ≤ (BitVec.ofNat 32 (i 0).val).toInt := by
    rw [toInt_row _ (idx2_lt0 i)]; exact Int.natCast_nonneg _
  rw [val_main_v16_apply, val_main_v13_apply, val_main_v12_apply, val_main_c_2_apply, v10_eq,
    MFLoss.Word.slt_zero_of_nonneg _ hn, select_zero]

/-- The first components of the pairs: at (e, k) the word of e. -/
theorem v23_eq (i : S1024x50x1.Idx) : val_main_v23 (F := F) i = BitVec.ofNat 32 (i 0).val := by
  rw [val_main_v23_apply, val_main_v22_apply, v16_eq]

/-- Wrapping a history word that is not negative leaves it alone. -/
theorem v21_eq (x3 : (⟨S1024x50, .i32⟩ : BufTy).Contents (Elt F)) (i : S1024x50.Idx) (h : 0 ≤ (x3 i).toInt) :
    val_main_v21 (F := F) x3 i = x3 i := by
  rw [val_main_v21_apply, val_main_v18_apply, val_main_v17_apply, val_main_c_4_apply,
    MFLoss.Word.slt_zero_of_nonneg _ h, select_zero]

/-- The second components of the pairs: at (e, k) history word k of row e, when it is not negative. -/
theorem v24_eq (x3 : (⟨S1024x50, .i32⟩ : BufTy).Contents (Elt F)) (e : Fin 1024) (k : Fin 50) (z : Fin 1)
    (h : 0 ≤ (x3 (ix2 e k)).toInt) : val_main_v24 (F := F) x3 (ix3 e k z) = x3 (ix2 e k) := by
  have ei : idx_main_v24 (ix3 e k z) = ix2 e k :=
    funext fun a => Fin.ext (by match a with | ⟨0, _⟩ => rfl | ⟨1, _⟩ => rfl)
  rw [val_main_v24_apply, ei, v21_eq x3 _ h]

/-- Component 0 of the joined array is the first piece. -/
theorem v25_fst (x3 : (⟨S1024x50, .i32⟩ : BufTy).Contents (Elt F)) (e : Fin 1024) (k : Fin 50) :
    val_main_v25 (F := F) x3 (ix3 e k 0) = val_main_v23 (F := F) (ix3 e k 0) := by
  unfold val_main_v25
  refine concatenate_pair_apply_left (t := S1024x50x2) (s₁ := S1024x50x1) (s₂ := S1024x50x1) 2 _ _ _ _ rfl (ix3 e k 0) ?_
  intro b
  match b with
  | ⟨0, _⟩ => rfl
  | ⟨1, _⟩ => rfl
  | ⟨2, _⟩ => rfl

/-- Component 1 of the joined array is the second piece. -/
theorem v25_snd (x3 : (⟨S1024x50, .i32⟩ : BufTy).Contents (Elt F)) (e : Fin 1024) (k : Fin 50) :
    val_main_v25 (F := F) x3 (ix3 e k 1) = val_main_v24 (F := F) x3 (ix3 e k 0) := by
  unfold val_main_v25
  refine concatenate_pair_apply_right (t := S1024x50x2) (s₁ := S1024x50x1) (s₂ := S1024x50x1) 2 _ _ _ _ rfl rfl (ix3 e k 0) ?_ rfl
  intro b hb
  match b with
  | ⟨0, _⟩ => rfl
  | ⟨1, _⟩ => rfl
  | ⟨2, _⟩ => exact absurd rfl hb

/-- The pair at (e, k), read signed: its row is e … -/
theorem pair_row (x3 : (⟨S1024x50, .i32⟩ : BufTy).Contents (Elt F)) (e : Fin 1024) (k : Fin 50) :
    (val_main_v25 (F := F) x3 (ix3 e k 0)).toInt = (e.val : ℤ) := by
  rw [v25_fst, v23_eq]
  exact toInt_row _ e.isLt

/-- … and its column is history word k of row e, when that word is not negative. -/
theorem pair_col (x3 : (⟨S1024x50, .i32⟩ : BufTy).Contents (Elt F)) (e : Fin 1024) (k : Fin 50)
    (h : 0 ≤ (x3 (ix2 e k)).toInt) :
    (val_main_v25 (F := F) x3 (ix3 e k 1)).toInt = (x3 (ix2 e k)).toInt := by
  rw [v25_snd, v24_eq x3 e k 0 h]

/-- Some pair is (r, c) exactly when c is among row r's history words. -/
theorem pair_iff_hit (x3 : (⟨S1024x50, .i32⟩ : BufTy).Contents (Elt F))
    (hr : ∀ i, 0 ≤ (x3 i).toInt ∧ (x3 i).toInt < 100000) (r : Fin 1024) (c : Fin 100000) :
    (∃ (e : Fin 1024) (k : Fin 50), (val_main_v25 (F := F) x3 (ix3 e k 0)).toInt = (r.val : ℤ)
        ∧ (val_main_v25 (F := F) x3 (ix3 e k 1)).toInt = (c.val : ℤ)) ↔ hit x3 r c.val := by
  unfold hit
  constructor
  · rintro ⟨e, k, h0, h1⟩
    rw [pair_row] at h0
    rw [pair_col x3 e k (hr _).1] at h1
    have he : e = r := Fin.ext (by exact_mod_cast h0)
    subst he
    exact ⟨k, h1⟩
  · rintro ⟨k, hk⟩
    exact ⟨r, k, pair_row x3 r k, (pair_col x3 r k (hr _).1).trans hk⟩

/-! ## The mask -/

/-- with every history word in [0, 100000), the mask is set at (r, c) exactly when c is among row r's words -/
theorem mask_ref' (x3 : (⟨S1024x50, .i32⟩ : BufTy).Contents (Elt F))
    (hr : ∀ i, 0 ≤ (x3 i).toInt ∧ (x3 i).toInt < 100000) (r : Fin 1024) (c : Fin 100000) :
    val_main_v27 (F := F) x3 (ix2 r c) = 1#1 ↔ hit x3 r c.val := by
  unfold val_main_v27
  rw [v11_const, v26_const]
  by_cases h : hit x3 r c.val
  · refine iff_of_true ?_ h
    exact ScatterPairs.scatter_const_of_hit scatter_S1024x100000_S1024x50x2_S1024x50_n_01_01_2 rfl rfl rfl rfl
      (0#1 : BitVec 1) 1#1 (val_main_v25 (F := F) x3) r c ((pair_iff_hit x3 hr r c).2 h)
  · refine iff_of_false ?_ h
    have hk := ScatterPairs.scatter_const_of_no_hit scatter_S1024x100000_S1024x50x2_S1024x50_n_01_01_2 rfl rfl rfl rfl
      (0#1 : BitVec 1) 1#1 (val_main_v25 (F := F) x3) r c (fun hh => h ((pair_iff_hit x3 hr r c).1 hh))
    intro hc
    exact absurd (hk.symm.trans hc) (by decide)

end Pairs

/-- with every history word in [0, 100000), the mask is set at (r, c) exactly when c is among row r's words -/
theorem mask_ref (x3 : (⟨S1024x50, .i32⟩ : BufTy).Contents (Elt Ideal))
    (hr : ∀ i, 0 ≤ (x3 i).toInt ∧ (x3 i).toInt < 100000) (r : Fin 1024) (c : Fin 100000) :
    val_main_v27 (F := Ideal) x3 (ix2 r c) = 1#1 ↔ hit x3 r c.val :=
  mask_ref' x3 hr r c

/-! ## The loss -/

/-- The selected table at (r, c) is the specification's contribution of (r, c). -/
theorem term_ref (x0 x1 : (⟨S100000x64, .f32⟩ : BufTy).Contents (Elt Ideal)) (x2 : (⟨S1024, .i32⟩ : BufTy).Contents (Elt Ideal))
    (x3 : (⟨S1024x50, .i32⟩ : BufTy).Contents (Elt Ideal))
    (hr : ∀ i, 0 ≤ (x3 i).toInt ∧ (x3 i).toInt < 100000) (r : Fin 1024) (c : Fin 100000) :
    val_main_v32 (F := Ideal) x0 x1 x2 x3 (ix2 r c)
      = term (Ideal.ofBits .f32 0x3F800000#32) (val_main_v6 (F := Ideal) x0 x2) x1 x3 r c := by
  rw [val_main_v32_apply, val_main_v30_apply, val_main_v31_apply, val_main_v29_apply, val_main_v28_apply,
    val_main_cst_apply, score_ref]
  unfold MFLoss.term MFLoss.sq
  by_cases h : hit x3 r c.val
  · rw [(mask_ref x3 hr r c).2 h, select_one, if_pos h]
    rfl
  · rw [eq_zero_of_ne_one (fun hm => h ((mask_ref x3 hr r c).1 hm)), select_zero, if_neg h]
    rfl

/-- the reference's loss is the zero word's value plus the specification's loss -/
theorem loss_ref (x0 x1 : (⟨S100000x64, .f32⟩ : BufTy).Contents (Elt Ideal)) (x2 : (⟨S1024, .i32⟩ : BufTy).Contents (Elt Ideal))
    (x3 : (⟨S1024x50, .i32⟩ : BufTy).Contents (Elt Ideal))
    (hr : ∀ i, 0 ≤ (x3 i).toInt ∧ (x3 i).toInt < 100000) (i : S_.Idx) :
    val_main_v33 (F := Ideal) x0 x1 x2 x3 i
      = Ideal.ofBits .f32 0x00000000#32 + loss (Ideal.ofBits .f32 0x3F800000#32) (val_main_v6 (F := Ideal) x0 x2) x1 x3 := by
  rw [val_main_v33_apply, val_main_cst_7_apply, Ideal.ofBits_def]
  unfold MFLoss.loss
  refine congrArg (fun t => Ideal.ofBits .f32 0x00000000#32 + t) ?_
  refine (sum_idx2 (n0 := 1024) (n1 := 100000) (fun j => val_main_v32 (F := Ideal) x0 x1 x2 x3 j)).trans ?_
  exact Finset.sum_congr rfl fun r _ => Finset.sum_congr rfl fun c _ => term_ref x0 x1 x2 x3 hr r c

/-! ## Axiom pins -/

/-- info: 'Cert.ReferenceIdeal.RefValue.score_ref' depends on axioms: [propext, Classical.choice, Quot.sound] -/
#guard_msgs (whitespace := lax) in #print axioms score_ref
/-- info: 'Cert.ReferenceIdeal.RefValue.mask_ref' depends on axioms: [propext, Classical.choice, Quot.sound] -/
#guard_msgs (whitespace := lax) in #print axioms mask_ref
/-- info: 'Cert.ReferenceIdeal.RefValue.loss_ref' depends on axioms: [propext, Classical.choice, Quot.sound] -/
#guard_msgs (whitespace := lax) in #print axioms loss_ref

end Cert.ReferenceIdeal.RefValue

end
-- ==== Proof.KTail.lean ====
/-
  THE KERNEL'S TWO RESULTS, from its two output arrays. After the grid the host keeps the first 100000 columns of the
  1024 × 100352 score array (the 352 padded columns are cut off) and reads the one-entry total as a scalar. The frame's
  run names the two arrays after the region and applies these two host operations to them; the arguments are untouched.
-/
import proofs.«416926_j9612136808809_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]
variable (m : (ℓ : Loc nD τ sig) → Buf (Elt F) ℓ) (ρ : Dev nD → PrngReg)

/-- The score result: the first output array with its last 352 columns dropped. -/
theorem tail_v9 (c : Dev nD) :
    Pipeline.afterTail₀ cfgs (dats m) 0 (V0 m) [hostOps1] c main_v9
      = extractStridedSlice S1024x100000 ![0, 0] ((dats m 0 c).arrAt 3 cfg0.N) slices_S1024x100352_S1024x100000_0_0 := by
  unfold Pipeline.afterTail₀
  show StableHlo.after hostOps1 _ (Proc.devRef .tc main_v9) = _
  after_results
  rw [Pipeline.withArrays_arr spec0 launch0.win.arr_inj c _ _ 3]

/-- The loss result: the second output array's one entry, as a scalar. -/
theorem tail_v10 (c : Dev nD) :
    Pipeline.afterTail₀ cfgs (dats m) 0 (V0 m) [hostOps1] c main_v10
      = shapeCast S_ ((dats m 0 c).arrAt 4 cfg0.N) shapeCasts_S1x1_S_ := by
  unfold Pipeline.afterTail₀
  show StableHlo.after hostOps1 _ (Proc.devRef .tc main_v10) = _
  after_results
  rw [Pipeline.withArrays_arr spec0 launch0.win.arr_inj c _ _ 4]
  generalize (dats m 0 c).arrAt 4 cfg0.N = A
  rfl

/-- The run, read: both results as the two host operations of the output arrays after the region, the four
    arguments as launched. -/
theorem run : θ_run defs (onTc (τ := τ) (main (F := F))) ⟨m, fun _ => 0, ρ⟩ fun r => ∀ c : Dev nD,
      r.2.mem ((c.tc : Thread nD τ).loc main_v10) = shapeCast S_ ((dats m 0 c).arrAt 4 cfg0.N) shapeCasts_S1x1_S_
      ∧ r.2.mem ((c.tc : Thread nD τ).loc main_v9)
          = extractStridedSlice S1024x100000 ![0, 0] ((dats m 0 c).arrAt 3 cfg0.N) slices_S1024x100352_S1024x100000_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_v10 m c),
      ((h c).2 main_v9 (Pipeline.mem_restRefs_of main_v9 (by decide) (by decide))).trans (tail_v9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.Tail

end
-- ==== Proof.KVocab.lean ====
/-
  ONE TILE'S TOTAL. At a grid point the kernel body forms a 512×1024 tile of scores, marks the entries whose column
  number is among the row's 50 history words, and adds up (score − 1)² over the marked entries and score² over the
  others, first along each row and then down the column of row sums: a 1×1 block. The body's arithmetic is printed in
  thirteen consecutive pieces; this is their composition as the body runs them, from the score tile `v12`, the grid
  point `i` (its second coordinate gives the tile's column numbers) and the block `x2` of history words.
-/
import proofs.«416926_j9612136808809_1_alg».proof.Proof.Gen.KernelIdeal.Skeleton

noncomputable section

namespace Cert.KernelIdeal.Tile

open Cert.KernelIdeal Cert.KernelIdeal.Gen Idealize.ShloMosaic

/-- The mask of the tile (a history word of the row equals the column's number), folded over the 50 words in the
    order the body compares them, then the selected squares summed over the tile. -/
def tileTotal {F : FTy → Type} [FloatOps F] (i : grid0.Coords) (v12 : FVec F S512x1024 .f32) (x2 : Vec F S512x50 .i32) :
    FVec F S1x1 .f32 :=
  k0_pay13 v12 (k0_pay4 i) x2
    (k0_pay11 (k0_pay4 i) x2
      (k0_pay9 (k0_pay4 i) x2 (k0_pay7 (k0_pay4 i) x2 (k0_pay5 i x2) (k0_pay6 x2)) (k0_pay8 x2))
      (k0_pay10 x2))
    (k0_pay12 x2)

end Cert.KernelIdeal.Tile

end
-- ==== Proof.KPieces.lean ====
/-
  WHAT THE BODY LEAVES AT ONE GRID POINT, as values. The body stores its score tile whole into the first output's
  block, and replaces the one-entry running total it carries from point to point by that total plus the tile's own
  total (at the very first point the total it adds to is the zero it has just stored); at the very last point it also
  copies the new running total into the second output's block. Each buffer's final contents, which the frame's run
  records as the list of stores made, is read back here as one term of the point's three input blocks and the
  running total found.
-/
import proofs.«416926_j9612136808809_1_alg».proof.Proof.Gen.KernelIdeal.Frame
import proofs.«416926_j9612136808809_1_alg».proof.Proof.KVocab
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen Cert.KernelIdeal.Tile

variable {F : FTy → Type} [FloatOps F]

theorem hz : (![0, 0] : Fin 2 → Nat) = fun _ => 0 := funext fun a => by fin_cases a <;> rfl

/-- The running total after a point: the total found, `prev`, plus the total of the point's own tile. -/
def step (i : grid0.Coords) (x0 : Vec F S512x64 .f32) (x1 : Vec F S1024x64 .f32) (x2 : Vec F S512x50 .i32) (prev : Vec F S1x1 .f32) : FVec F S1x1 .f32 :=
  k0_pay1 (tileTotal i (k0_pay3 x0 x1) x2) prev

/-- The first output's block after the first point: the score tile of the point's user and item blocks. -/
theorem out3_A (c : Dev nD) (i : grid0.Coords) (arg2 : Memref sig .tc .vmem S512x64 .f32) (harg2 : arg2.IsWhole) (arg3 : Memref sig .tc .vmem S1024x64 .f32) (harg3 : arg3.IsWhole) (arg4 : Memref sig .tc .vmem S512x50 .i32) (harg4 : arg4.IsWhole) (arg5 : Memref sig .tc .vmem S512x1024 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 : Vec F S512x64 .f32) (x1 : Vec F S1024x64 .f32) (x2 : Vec F S512x50 .i32) :
    out0_A_3 c i arg2 harg2 arg3 harg3 arg4 harg4 arg5 harg5 arg6 harg6 arg7 harg7 hc0 hc1 x0 x1 x2 = k0_pay3 x0 x1 := by
  unfold out0_A_3
  rw [View.read_writes_eq_canon _ _ _ (cover0_A_3 c i arg2 harg2 arg3 harg3 arg4 harg4 arg5 harg5 arg6 harg6 arg7 harg7 hc0 hc1 x0 x1 x2)]
  unfold kernelRun0_A
  dsimp only
  sl_unfold_words
  rw [View.canon_unit_zero hz]
  simp only [View.readAt_eq_ld, harg2.read_unread, harg3.read_unread, harg4.read_unread, harg7.read_unread, View.ld_unit_zero (S := S512x64) hz, View.ld_unit_zero (S := S1024x64) hz, View.ld_unit_zero (S := S512x50) hz, View.ld_unit_zero (S := S1x1) hz, View.readCov_unit_zero (S := S1x1) _ hz]

/-- the same after a middle point, -/
theorem out3_B (c : Dev nD) (i : grid0.Coords) (arg2 : Memref sig .tc .vmem S512x64 .f32) (harg2 : arg2.IsWhole) (arg3 : Memref sig .tc .vmem S1024x64 .f32) (harg3 : arg3.IsWhole) (arg4 : Memref sig .tc .vmem S512x50 .i32) (harg4 : arg4.IsWhole) (arg5 : Memref sig .tc .vmem S512x1024 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 : Vec F S512x64 .f32) (x1 : Vec F S1024x64 .f32) (x2 : Vec F S512x50 .i32) (xs0 : Vec F S1x1 .f32) :
    out0_B_3 c i arg2 harg2 arg3 harg3 arg4 harg4 arg5 harg5 arg6 harg6 arg7 harg7 hc0 hc1 x0 x1 x2 xs0 = k0_pay3 x0 x1 := by
  unfold out0_B_3
  rw [View.read_writes_eq_canon _ _ _ (cover0_B_3 c i arg2 harg2 arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg2.read_unread, harg3.read_unread, harg4.read_unread, harg7.read_unread, View.ld_unit_zero (S := S512x64) hz, View.ld_unit_zero (S := S1024x64) hz, View.ld_unit_zero (S := S512x50) hz, View.ld_unit_zero (S := S1x1) hz, View.readCov_unit_zero (S := S1x1) _ hz]

/-- and after the last point. -/
theorem out3_C (c : Dev nD) (i : grid0.Coords) (arg2 : Memref sig .tc .vmem S512x64 .f32) (harg2 : arg2.IsWhole) (arg3 : Memref sig .tc .vmem S1024x64 .f32) (harg3 : arg3.IsWhole) (arg4 : Memref sig .tc .vmem S512x50 .i32) (harg4 : arg4.IsWhole) (arg5 : Memref sig .tc .vmem S512x1024 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S512x64 .f32) (x1 : Vec F S1024x64 .f32) (x2 : Vec F S512x50 .i32) (xs0 : Vec F S1x1 .f32) :
    out0_C_3 c i arg2 harg2 arg3 harg3 arg4 harg4 arg5 harg5 arg6 harg6 arg7 harg7 hc0 hc1 x0 x1 x2 xs0 = k0_pay3 x0 x1 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg4.read_unread, harg7.read_unread, View.ld_unit_zero (S := S512x64) hz, View.ld_unit_zero (S := S1024x64) hz, View.ld_unit_zero (S := S512x50) hz, View.ld_unit_zero (S := S1x1) hz, View.readCov_unit_zero (S := S1x1) _ hz]

/-- The running total after the first point: the stored zero plus the first tile's total. -/
theorem sout_A (c : Dev nD) (i : grid0.Coords) (arg2 : Memref sig .tc .vmem S512x64 .f32) (harg2 : arg2.IsWhole) (arg3 : Memref sig .tc .vmem S1024x64 .f32) (harg3 : arg3.IsWhole) (arg4 : Memref sig .tc .vmem S512x50 .i32) (harg4 : arg4.IsWhole) (arg5 : Memref sig .tc .vmem S512x1024 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 : Vec F S512x64 .f32) (x1 : Vec F S1024x64 .f32) (x2 : Vec F S512x50 .i32) :
    sout0_A_0 c i arg2 harg2 arg3 harg3 arg4 harg4 arg5 harg5 arg6 harg6 arg7 harg7 hc0 hc1 x0 x1 x2 = step i x0 x1 x2 k0_pay2 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1x1) hz, View.readCov_unit_zero (S := S1x1) _ hz]
  unfold step tileTotal
  simp only [View.readAt_eq_ld, harg2.read_unread, harg3.read_unread, harg4.read_unread, harg7.read_unread, View.ld_unit_zero (S := S512x64) hz, View.ld_unit_zero (S := S1024x64) hz, View.ld_unit_zero (S := S512x50) hz, View.ld_unit_zero (S := S1x1) hz, View.readCov_unit_zero (S := S1x1) _ hz]

/-- The running total after a middle point: the total found plus the tile's. -/
theorem sout_B (c : Dev nD) (i : grid0.Coords) (arg2 : Memref sig .tc .vmem S512x64 .f32) (harg2 : arg2.IsWhole) (arg3 : Memref sig .tc .vmem S1024x64 .f32) (harg3 : arg3.IsWhole) (arg4 : Memref sig .tc .vmem S512x50 .i32) (harg4 : arg4.IsWhole) (arg5 : Memref sig .tc .vmem S512x1024 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 : Vec F S512x64 .f32) (x1 : Vec F S1024x64 .f32) (x2 : Vec F S512x50 .i32) (xs0 : Vec F S1x1 .f32) :
    sout0_B_0 c i arg2 harg2 arg3 harg3 arg4 harg4 arg5 harg5 arg6 harg6 arg7 harg7 hc0 hc1 x0 x1 x2 xs0 = step i x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  rw [View.canon_unit_zero hz]
  unfold step tileTotal
  simp only [View.readAt_eq_ld, harg2.read_unread, harg3.read_unread, harg4.read_unread, harg7.read_unread, View.ld_unit_zero (S := S512x64) hz, View.ld_unit_zero (S := S1024x64) hz, View.ld_unit_zero (S := S512x50) hz, View.ld_unit_zero (S := S1x1) hz, View.readCov_unit_zero (S := S1x1) _ hz]

/-- The running total after the last point: the same step, -/
theorem sout_C (c : Dev nD) (i : grid0.Coords) (arg2 : Memref sig .tc .vmem S512x64 .f32) (harg2 : arg2.IsWhole) (arg3 : Memref sig .tc .vmem S1024x64 .f32) (harg3 : arg3.IsWhole) (arg4 : Memref sig .tc .vmem S512x50 .i32) (harg4 : arg4.IsWhole) (arg5 : Memref sig .tc .vmem S512x1024 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S512x64 .f32) (x1 : Vec F S1024x64 .f32) (x2 : Vec F S512x50 .i32) (xs0 : Vec F S1x1 .f32) :
    sout0_C_0 c i arg2 harg2 arg3 harg3 arg4 harg4 arg5 harg5 arg6 harg6 arg7 harg7 hc0 hc1 x0 x1 x2 xs0 = step i x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hz]
  unfold step tileTotal
  simp only [View.readAt_eq_ld, harg2.read_unread, harg3.read_unread, harg4.read_unread, harg7.read_unread, View.ld_unit_zero (S := S512x64) hz, View.ld_unit_zero (S := S1024x64) hz, View.ld_unit_zero (S := S512x50) hz, View.ld_unit_zero (S := S1x1) hz, View.readCov_unit_zero (S := S1x1) _ hz]

/-- and the second output's block there: a copy of the new running total. -/
theorem out4_C (c : Dev nD) (i : grid0.Coords) (arg2 : Memref sig .tc .vmem S512x64 .f32) (harg2 : arg2.IsWhole) (arg3 : Memref sig .tc .vmem S1024x64 .f32) (harg3 : arg3.IsWhole) (arg4 : Memref sig .tc .vmem S512x50 .i32) (harg4 : arg4.IsWhole) (arg5 : Memref sig .tc .vmem S512x1024 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S512x64 .f32) (x1 : Vec F S1024x64 .f32) (x2 : Vec F S512x50 .i32) (xs0 : Vec F S1x1 .f32) :
    out0_C_4 c i arg2 harg2 arg3 harg3 arg4 harg4 arg5 harg5 arg6 harg6 arg7 harg7 hc0 hc1 x0 x1 x2 xs0 = step i x0 x1 x2 xs0 := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz]
  unfold step tileTotal
  simp only [View.readAt_eq_ld, harg2.read_unread, harg3.read_unread, harg4.read_unread, harg7.read_unread, View.ld_unit_zero (S := S512x64) hz, View.ld_unit_zero (S := S1024x64) hz, View.ld_unit_zero (S := S512x50) hz, View.ld_unit_zero (S := S1x1) hz, View.readCov_unit_zero (S := S1x1) _ hz]

end Cert.KernelIdeal.Pieces

end
-- ==== Proof.KAcc.lean ====
/-
  THE RUNNING TOTAL ACROSS THE GRID. The body carries a one-entry total from point to point: after point 0 it is the
  stored zero plus tile 0's total, after point n + 1 the total after point n plus tile n + 1's total. The frame's
  record of what the carried buffer holds after each point is exactly this recursion (by induction on the point, one
  case per position of the point in the grid: first, middle, last); at the last point the body copies the total into
  the second output's block, which is the whole one-entry output array and is written back there and only there.
-/
import proofs.«416926_j9612136808809_1_alg».proof.Proof.KPieces
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Tile Cert.KernelIdeal.Pieces

variable {F : FTy → Type} [FloatOps F]
variable (m : (ℓ : Loc nD τ sig) → Buf (Elt F) ℓ)

/-- The point's three input blocks, by their literal types: 512 user rows, 1024 item rows, 512 rows of history words. -/
abbrev ublk (c : Dev nD) (t : Fin cfg0.N) : Vec F S512x64 .f32 := iblk m c 0 t
abbrev vblk (c : Dev nD) (t : Fin cfg0.N) : Vec F S1024x64 .f32 := iblk m c 1 t
abbrev sblk (c : Dev nD) (t : Fin cfg0.N) : Vec F S512x50 .i32 := iblk m c 2 t

/-- The running total after point `n`. -/
def acc (c : Dev nD) : (n : ℕ) → n < cfg0.N → Vec F S1x1 .f32
  | 0, h => step (grid0.coords ⟨0, h⟩) (ublk m c ⟨0, h⟩) (vblk m c ⟨0, h⟩) (sblk m c ⟨0, h⟩) k0_pay2
  | n + 1, h => step (grid0.coords ⟨n + 1, h⟩) (ublk m c ⟨n + 1, h⟩) (vblk m c ⟨n + 1, h⟩) (sblk m c ⟨n + 1, h⟩)
      (acc c n (Nat.lt_of_succ_lt h))

/-- What the carried buffer holds after point `n` is the running total. -/
theorem scratch_eq (c : Dev nD) : ∀ (n : ℕ) (h : n < cfg0.N), (outsAt0 m c n h).2.2 = acc m c n h
  | 0, h => by
    rw [outsAt0_A m c ⟨0, h⟩ (Nat.zero_mod _) (by show ¬(0 % 196 = 195); decide)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (iblk m c 0 ⟨0, h⟩) (iblk m c 1 ⟨0, h⟩) (iblk m c 2 ⟨0, h⟩)
  | n + 1, h => by
    have hN : cfg0.N = 196 := N_0
    have h0 : ¬(⟨n + 1, h⟩ : Fin cfg0.N).val % 196 = 0 := by dsimp only; omega
    by_cases h1 : (⟨n + 1, h⟩ : Fin cfg0.N).val % 196 = 195
    · rw [outsAt0_C m c ⟨n + 1, h⟩ h0 h1]
      dsimp only
      refine (sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) _).trans ?_
      show step _ _ _ _ (outsAt0 m c n _).2.2 = step _ _ _ _ (acc m c n _)
      rw [scratch_eq c n]
    · rw [outsAt0_B m c ⟨n + 1, h⟩ h0 h1]
      dsimp only
      refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) _).trans ?_
      show step _ _ _ _ (outsAt0 m c n _).2.2 = step _ _ _ _ (acc m c n _)
      rw [scratch_eq c n]

/-- At the last point the second output's block receives the running total after that point. -/
theorem out4_last (c : Dev nD) : ∀ (n : ℕ) (h : n < cfg0.N), n % 196 = 195 → (outsAt0 m c n h).2.1 = acc m c n h
  | 0, h => fun h1 => absurd h1 (by decide)
  | n + 1, h => fun h1 => by
    have hN : cfg0.N = 196 := N_0
    have h0 : ¬(⟨n + 1, h⟩ : Fin cfg0.N).val % 196 = 0 := by dsimp only; omega
    rw [outsAt0_C m c ⟨n + 1, h⟩ h0 h1]
    dsimp only
    refine (out4_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) _).trans ?_
    show step _ _ _ _ (outsAt0 m c n _).2.2 = step _ _ _ _ (acc m c n _)
    rw [scratch_eq m c n]

/-- The total after the last point, as contents of the one-entry second output array. -/
abbrev total (c : Dev nD) : Buf (Elt F) ((c : Thread nD τ).loc main_v8_1) :=
  acc m c 195 (by rw [show cfg0.N = 196 from N_0]; decide)

/-- The second output's block index is (0, 0) at every point, and its block is one entry. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem xsize4 : ∀ t : Fin cfg0.N, win0_4.xsize (grid0.coords t) (0 : Fin 2) = 1 ∧ win0_4.xsize (grid0.coords t) (1 : Fin 2) = 1 :=
  (by decide +kernel : ∀ t : Fin grid0.N, win0_4.xsize (grid0.coords t) (0 : Fin 2) = 1 ∧ win0_4.xsize (grid0.coords t) (1 : Fin 2) = 1)

/-- The one write-back of the second output, at the last point, writes the total. -/
theorem flushed4_eq (c : Dev nD) (t : Fin cfg0.N) (hf : (cfg0.win 4).flush t = true) :
    (dats m 0 c).flushed 4 t = ((cfg0.win 4).blk t).view.read (Elt F) (total m c) := by
  have hN : cfg0.N = 196 := N_0
  have h1 : t.val % 196 = 195 := (flush0_4 t).mp hf
  have h195 : t.val = 195 := by have := t.isLt; omega
  show (cfg0.win 4).cut (grid0.coords t) ((dats m 0 c).after 4 t) = _
  rw [after0_4, out4_last m c t.val t.isLt h1]
  have hz' : (fun a => win0_4.index t a * main_v8_1.ty.shape.size a) = fun _ => 0 := funext fun a => by
    match a with
    | ⟨0, _⟩ => show win0_4.index t 0 * _ = 0; rw [(idx4 t).1]; simp
    | ⟨1, _⟩ => show win0_4.index t 1 * _ = 0; rw [(idx4 t).2]; simp
  have e : acc m c t.val t.isLt = total m c := by
    obtain ⟨n, hn⟩ := t
    dsimp only at h195
    subst h195
    rfl
  rw [e]
  exact (Memref.read_access_unit_zero (Elt F) main_v8_1 hz' (fun a => by rw [congrFun hz' a]; simp) (total m c)).symm

/-- The last grid point. -/
abbrev tlast : Fin cfg0.N := ⟨195, by rw [show cfg0.N = 196 from N_0]; decide⟩

/-- So the second output array ends holding the total. -/
theorem final4 (c : Dev nD) : (dats m 0 c).arrAt 4 cfg0.N = total m c :=
  (dats m 0 c).arrAt_eq_of_cover 4 (total m c) (flushed4_eq m c) fun i =>
    ⟨tlast, (flush0_4 tlast).mpr (by show 195 % 196 = 195; decide), by
      show i ∈ ((View.whole main_v8_1).slice (win0_4.rect tlast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tlast 0 * win0_4.size 0 ≤ (i 0 : Nat) ∧ (i 0 : Nat) < win0_4.index tlast 0 * win0_4.size 0 + win0_4.xsize (grid0.coords tlast) 0
        rw [(idx4 tlast).1, (xsize4 tlast).1]; omega
      | ⟨1, _⟩ =>
        show win0_4.index tlast 1 * win0_4.size 1 ≤ (i 1 : Nat) ∧ (i 1 : Nat) < win0_4.index tlast 1 * win0_4.size 1 + win0_4.xsize (grid0.coords tlast) 1
        rw [(idx4 tlast).2, (xsize4 tlast).2]; omega⟩

end Cert.KernelIdeal.Acc

end
-- ==== Proof.KTile.lean ====
/-
  ONE TILE'S CONTRIBUTION TO THE LOSS, READ AS A DOUBLE SUM.
  The body marks entry (p, q) of its 512×1024 tile when one of the 50 history words of row p equals the number of
  column q, a 32-bit word; it then adds (score − 1)² over the marked entries and score² over the others, along each
  row and then down the column of row sums. Here the mark at one entry is read as "some history word of the row is the
  column's number", and the tile total as the double sum of the entries' contributions.
-/
import proofs.«416926_j9612136808809_1_alg».proof.Proof.Gen.KernelIdeal.Skeleton
import proofs.«416926_j9612136808809_1_alg».proof.Proof.Spec
import proofs.«416926_j9612136808809_1_alg».proof.Proof.KVocab
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option synthInstance.maxSize 4096

noncomputable section

open scoped BigOperators

namespace MFLoss

/-- An entry's contribution depends on its condition only up to equivalence, whatever decides it. -/
theorem sq_congr (one : EReal) {b b' : Prop} [Decidable b] [Decidable b'] (h : b ↔ b') (s : EReal) :
    sq one b s = sq one b' s := by
  unfold sq
  by_cases hb : b
  · rw [if_pos hb, if_pos (h.mp hb)]
  · rw [if_neg hb, if_neg fun hb' => hb (h.mpr hb')]

end MFLoss

namespace Cert.KernelIdeal.Tile

open Cert.KernelIdeal Cert.KernelIdeal.Gen Idealize.ShloMosaic Idealize.ShloMosaic.ValueIdx MFLoss

variable {F : FTy → Type} [FloatOps F]

/-! ## One-bit words -/

/-- The OR of two one-bit words is set exactly when one of them is. -/
theorem ori_eq_one_iff (a b : BitVec 1) : IntOp.ori a b = 1#1 ↔ a = 1#1 ∨ b = 1#1 := by
  revert a b; decide

/-- The cleared bit is not the set bit. -/
theorem zero_eq_one_iff : ((0#1 : BitVec 1) = 1#1) ↔ False := by decide

/-! ## The vector operations at one entry -/

/-- An OR of two masks is set at an entry exactly when one of them is set there. -/
theorem ori_apply_iff {s : Shape} (a b : IVec s 1) (j : s.Idx) : ori a b j = 1#1 ↔ a j = 1#1 ∨ b j = 1#1 :=
  ori_eq_one_iff (a j) (b j)

/-- An equality comparison of two word vectors is set at an entry exactly when the two words there are equal. -/
theorem cmpi_eq_apply_iff {s : Shape} {w : Nat} (a b : IVec s w) (j : s.Idx) : cmpi .eq a b j = 1#1 ↔ a j = b j :=
  StableHlo.Predicate.cmpi_eq_iff

/-- A one-column array broadcast along the rows reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of the block of history words, broadcast along the rows, reads at (p, q) the word k of row p. -/
theorem histCol_apply (x2 : Vec F S512x50 .i32) (k : ℕ) (h : S512x50.Slices ![0, k] S512x1) (p : Fin 512) (q : Fin 1024) :
    (broadcastTo S512x1024 (extractStridedSlice S512x1 ![0, k] x2 h : IVec S512x1 32) broadcasts_S512x1_S512x1024 : IVec S512x1024 32) (ix2 p q)
      = x2 (ix2 p ⟨k, by have := h.2 1; simpa using this⟩) := by
  refine (broadcastTo_a1_ab_apply _ _ p q).trans ?_
  exact slice2_axis1_apply k x2 h p 0 _ rfl

/-- The row of column numbers, broadcast down the rows, reads at (p, q) the number of column q. -/
theorem colRow_apply (v17 : IVec S1x1024 32) (p : Fin 512) (q : Fin 1024) :
    (broadcastTo S512x1024 v17 broadcasts_S1x1024_S512x1024 : IVec S512x1024 32) (ix2 p q) = v17 (ix2 0 q) :=
  broadcastTo_1b_ab_apply v17 _ p q

/-- The column numbers of tile j: 1024·j + q at column q, as a 32-bit word. -/
theorem pay4_apply (i : grid0.Coords) (q : Fin 1024) :
    k0_pay4 i (ix2 0 q) = BitVec.ofNat 32 (1024 * (i 1).val + q.val) := by
  unfold k0_pay4
  show IntOp.addi (Scalar.muli (BitVec.ofNat 32 (i 1).val) 1024#32) (iota .tc S1x1024 32 [1] iota_S1x1024_d1_w32 (ix2 0 q)) = _
  rw [iota_single_apply]
  show BitVec.ofNat 32 (i 1).val * BitVec.ofNat 32 1024 + BitVec.ofNat 32 q.val = _
  rw [BitVec.ofNat_add, BitVec.ofNat_mul, BitVec.mul_comm]

/-! ## The mark at one entry, part by part -/

/-- Word k of row p of the history block is the word w. -/
def HistIs (x2 : Vec F S512x50 .i32) (p : Fin 512) (w : BitVec 32) (k : ℕ) (hk : k < 50 := by decide) : Prop :=
  x2 (ix2 p ⟨k, hk⟩) = w

/-- The comparison of history column k with the column numbers is set at (p, q) exactly when word k of row p is the
    number of column q. -/
theorem cmpCol_iff (x2 : Vec F S512x50 .i32) (v17 : IVec S1x1024 32) (k : ℕ) (h : S512x50.Slices ![0, k] S512x1)
    (p : Fin 512) (q : Fin 1024) :
    cmpi .eq (broadcastTo S512x1024 (extractStridedSlice S512x1 ![0, k] x2 h : IVec S512x1 32) broadcasts_S512x1_S512x1024 : IVec S512x1024 32)
        (broadcastTo S512x1024 v17 broadcasts_S1x1024_S512x1024) (ix2 p q) = 1#1
      ↔ HistIs x2 p (v17 (ix2 0 q)) k (by have := h.2 1; simpa using this) := by
  rw [cmpi_eq_apply_iff, histCol_apply, colRow_apply]
  rfl

/-- The comparison of a column handed over already broadcast with the column numbers, at (p, q). -/
theorem cmpHanded_iff (v41 : IVec S512x1024 32) (v17 : IVec S1x1024 32) (p : Fin 512) (q : Fin 1024) :
    cmpi .eq v41 (broadcastTo S512x1024 v17 broadcasts_S1x1024_S512x1024) (ix2 p q) = 1#1
      ↔ v41 (ix2 p q) = v17 (ix2 0 q) := by
  rw [cmpi_eq_apply_iff, colRow_apply]

theorem pay6_apply (x2 : Vec F S512x50 .i32) (p : Fin 512) (q : Fin 1024) : k0_pay6 x2 (ix2 p q) = x2 (ix2 p ⟨4, by decide⟩) := by
  unfold k0_pay6; exact histCol_apply x2 4 _ p q

theorem pay8_apply (x2 : Vec F S512x50 .i32) (p : Fin 512) (q : Fin 1024) : k0_pay8 x2 (ix2 p q) = x2 (ix2 p ⟨16, by decide⟩) := by
  unfold k0_pay8; exact histCol_apply x2 16 _ p q

theorem pay10_apply (x2 : Vec F S512x50 .i32) (p : Fin 512) (q : Fin 1024) : k0_pay10 x2 (ix2 p q) = x2 (ix2 p ⟨28, by decide⟩) := by
  unfold k0_pay10; exact histCol_apply x2 28 _ p q

theorem pay12_apply (x2 : Vec F S512x50 .i32) (p : Fin 512) (q : Fin 1024) : k0_pay12 x2 (ix2 p q) = x2 (ix2 p ⟨40, by decide⟩) := by
  unfold k0_pay12; exact histCol_apply x2 40 _ p q

/-- After the first part the mark is set exactly when one of words 0–3 of the row is the column's number. -/
theorem pay5_iff (i : grid0.Coords) (x2 : Vec F S512x50 .i32) (p : Fin 512) (q : Fin 1024) :
    k0_pay5 i x2 (ix2 p q) = 1#1
      ↔ HistIs x2 p (k0_pay4 i (ix2 0 q)) 0 ∨ HistIs x2 p (k0_pay4 i (ix2 0 q)) 1 ∨ HistIs x2 p (k0_pay4 i (ix2 0 q)) 2
        ∨ HistIs x2 p (k0_pay4 i (ix2 0 q)) 3 := by
  unfold k0_pay5
  simp only [ori_apply_iff, cmpCol_iff, broadcast_apply, zero_eq_one_iff, false_or, or_assoc]

/-- After the second part the mark is set exactly when it was set before, or the column handed over (word 4) or one of words 5–15 of the row is the column's number. -/
theorem pay7_iff (v17 : IVec S1x1024 32) (x2 : Vec F S512x50 .i32) (v39 : IVec S512x1024 1) (v41 : IVec S512x1024 32)
    (p : Fin 512) (q : Fin 1024) :
    k0_pay7 v17 x2 v39 v41 (ix2 p q) = 1#1
      ↔ v39 (ix2 p q) = 1#1 ∨ v41 (ix2 p q) = v17 (ix2 0 q)
        ∨ HistIs x2 p (v17 (ix2 0 q)) 5 ∨ HistIs x2 p (v17 (ix2 0 q)) 6 ∨ HistIs x2 p (v17 (ix2 0 q)) 7
        ∨ HistIs x2 p (v17 (ix2 0 q)) 8 ∨ HistIs x2 p (v17 (ix2 0 q)) 9 ∨ HistIs x2 p (v17 (ix2 0 q)) 10
        ∨ HistIs x2 p (v17 (ix2 0 q)) 11 ∨ HistIs x2 p (v17 (ix2 0 q)) 12 ∨ HistIs x2 p (v17 (ix2 0 q)) 13
        ∨ HistIs x2 p (v17 (ix2 0 q)) 14 ∨ HistIs x2 p (v17 (ix2 0 q)) 15 := by
  unfold k0_pay7
  simp only [ori_apply_iff, cmpHanded_iff, histCol_apply, or_assoc, HistIs]

/-- After the third part: set before, or the column handed over (word 16) or one of words 17–27 is the column's number. -/
theorem pay9_iff (v17 : IVec S1x1024 32) (x2 : Vec F S512x50 .i32) (v99 : IVec S512x1024 1) (v101 : IVec S512x1024 32)
    (p : Fin 512) (q : Fin 1024) :
    k0_pay9 v17 x2 v99 v101 (ix2 p q) = 1#1
      ↔ v99 (ix2 p q) = 1#1 ∨ v101 (ix2 p q) = v17 (ix2 0 q)
        ∨ HistIs x2 p (v17 (ix2 0 q)) 17 ∨ HistIs x2 p (v17 (ix2 0 q)) 18 ∨ HistIs x2 p (v17 (ix2 0 q)) 19
        ∨ HistIs x2 p (v17 (ix2 0 q)) 20 ∨ HistIs x2 p (v17 (ix2 0 q)) 21 ∨ HistIs x2 p (v17 (ix2 0 q)) 22
        ∨ HistIs x2 p (v17 (ix2 0 q)) 23 ∨ HistIs x2 p (v17 (ix2 0 q)) 24 ∨ HistIs x2 p (v17 (ix2 0 q)) 25
        ∨ HistIs x2 p (v17 (ix2 0 q)) 26 ∨ HistIs x2 p (v17 (ix2 0 q)) 27 := by
  unfold k0_pay9
  simp only [ori_apply_iff, cmpHanded_iff, histCol_apply, or_assoc, HistIs]

/-- After the fourth part: set before, or the column handed over (word 28) or one of words 29–39 is the column's number. -/
theorem pay11_iff (v17 : IVec S1x1024 32) (x2 : Vec F S512x50 .i32) (v159 : IVec S512x1024 1) (v161 : IVec S512x1024 32)
    (p : Fin 512) (q : Fin 1024) :
    k0_pay11 v17 x2 v159 v161 (ix2 p q) = 1#1
      ↔ v159 (ix2 p q) = 1#1 ∨ v161 (ix2 p q) = v17 (ix2 0 q)
        ∨ HistIs x2 p (v17 (ix2 0 q)) 29 ∨ HistIs x2 p (v17 (ix2 0 q)) 30 ∨ HistIs x2 p (v17 (ix2 0 q)) 31
        ∨ HistIs x2 p (v17 (ix2 0 q)) 32 ∨ HistIs x2 p (v17 (ix2 0 q)) 33 ∨ HistIs x2 p (v17 (ix2 0 q)) 34
        ∨ HistIs x2 p (v17 (ix2 0 q)) 35 ∨ HistIs x2 p (v17 (ix2 0 q)) 36 ∨ HistIs x2 p (v17 (ix2 0 q)) 37
        ∨ HistIs x2 p (v17 (ix2 0 q)) 38 ∨ HistIs x2 p (v17 (ix2 0 q)) 39 := by
  unfold k0_pay11
  simp only [ori_apply_iff, cmpHanded_iff, histCol_apply, or_assoc, HistIs]

/-! ## The select and the two sums -/

/-- Over any mark m: the entry of the 1×1 result is the sum over the rows of the sum over the columns of
    (s − 1)² where m is set and s² elsewhere, s the score at the entry. -/
theorem sums_apply (m : IVec S512x1024 1) (v12 : FVec Ideal S512x1024 .f32) :
    (shapeCast S1x1
      (multiReduction .add [0] S1
        (shapeCast S512x1
          (multiReduction .add [1] S512
            (select m
              (mulf (subf v12 (broadcast S512x1024 (Scalar.ofBits .f32 0x3F800000#32)))
                (subf v12 (broadcast S512x1024 (Scalar.ofBits .f32 0x3F800000#32))))
              (mulf v12 v12))
            0x00000000#32 reduces_S512x1024_S512 (.inl rfl) rfl : FVec Ideal S512 .f32)
          shapeCasts_S512_S512x1 : FVec Ideal S512x1 .f32)
        0x00000000#32 reduces_S512x1_S1 (.inl rfl) rfl : FVec Ideal S1 .f32)
      shapeCasts_S1_S1x1 : FVec Ideal S1x1 .f32) (ix2 0 0)
    = ∑ p : Fin 512, ∑ q : Fin 1024,
        if m (ix2 p q) = 1#1 then
          ((v12 (ix2 p q) : EReal) - Ideal.ofBits .f32 0x3F800000#32) * ((v12 (ix2 p q) : EReal) - Ideal.ofBits .f32 0x3F800000#32)
        else (v12 (ix2 p q) : EReal) * (v12 (ix2 p q) : EReal) := by
  refine (shapeCast_a_1a_apply _ _ 0 0).trans ?_
  refine (Ideal.multiReduction_add_single _ _ _ _ _ _).trans ?_
  refine Finset.sum_congr rfl fun (p : Fin 512) _ => ?_
  refine (shapeCast_apply _ _ _ (ix1 p) ?_).trans ?_
  · rw [Shape.rowMajor_val_one, Shape.rowMajor_val_two]
    show p.val = p.val * 1 + 0
    omega
  refine (Ideal.multiReduction_add_single _ _ _ _ _ _).trans ?_
  refine Finset.sum_congr rfl fun (q : Fin 1024) _ => ?_
  have e : reduces_S512x1024_S512.lift (ix1 p) q = ix2 p q :=
    funext fun a => by match a with | ⟨0, _⟩ => rfl | ⟨1, _⟩ => rfl
  rw [e]
  rfl

/-! ## The tile total -/

/-- The choice between the two squares by a condition equivalent to b is the contribution at b. -/
theorem ite_eq_sq (one s : EReal) (c b : Prop) [Decidable c] [Decidable b] (h : c ↔ b) :
    (if c then (s - one) * (s - one) else s * s) = sq one b s :=
  sq_congr one h s

open Classical in
/-- At the ideal instance the tile total's one entry is the zero word's value plus, over the rows, the zero word's value
    plus, over the columns, the entry's contribution: squared distance from one where a history word of the row is the
    column's number, the square elsewhere. -/
theorem tileTotal_apply (i : grid0.Coords) (v12 : FVec Ideal S512x1024 .f32) (x2 : Vec Ideal S512x50 .i32) :
    tileTotal (F := Ideal) i v12 x2 (ix2 0 0)
      = Ideal.ofBits .f32 0x00000000#32 + ∑ p : Fin 512, (Ideal.ofBits .f32 0x00000000#32 + ∑ q : Fin 1024,
          sq (Ideal.ofBits .f32 0x3F800000#32) (∃ k : Fin 50, x2 (ix2 p k) = BitVec.ofNat 32 (1024 * (i 1).val + q.val)) (v12 (ix2 p q))) := by
  simp only [Ideal.ofBits_zero_f32, zero_add]
  unfold tileTotal k0_pay13
  refine (sums_apply _ v12).trans ?_
  refine Finset.sum_congr rfl fun p _ => Finset.sum_congr rfl fun q _ => ?_
  refine ite_eq_sq _ _ _ _ ?_
  simp only [ori_apply_iff, cmpHanded_iff, histCol_apply, pay12_apply, pay11_iff, pay10_apply, pay9_iff, pay8_apply,
    pay7_iff, pay6_apply, pay5_iff, pay4_apply, or_assoc, HistIs]
  constructor
  · intro h
    repeat' (first | exact ⟨_, h⟩ | rcases h with h | h)
  · rintro ⟨k, hk⟩
    fin_cases k <;> simp only [hk, true_or, or_true]

end Cert.KernelIdeal.Tile

end
-- ==== Proof.KMatmul.lean ====
import proofs.«416926_j9612136808809_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! The score tile of the kernel body at one entry: a 512×64 block of user rows times the transpose of a
   1024×64 block of item rows, summed into a zero accumulator. At the ideal values a change of float
   format is the identity, so entry (p, q) is the inner product over the 64 columns of user row p and
   item row q. -/

/-- On the left operand's row axis the index of a product term is the output's row. -/
theorem lhs_pay3_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
/-- On the left operand's contracted axis it is the contraction position. -/
theorem lhs_pay3_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
/-- On the right operand's contracted axis it is the contraction position. -/
theorem rhs_pay3_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
/-- On the right operand's column axis it is the output's column. -/
theorem rhs_pay3_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- entry (p, q) of the score tile is the inner product of user row p and item row q of the two blocks -/
theorem pay3_apply (x0 : Vec Ideal S512x64 .f32) (x1 : Vec Ideal S1024x64 .f32) (p : Fin 512) (q : Fin 1024) :
    k0_pay3 (F := Ideal) x0 x1 (ix2 p q) = ∑ k : Fin 64, x0 (ix2 p k) * x1 (ix2 q k) := by
  unfold k0_pay3
  simp only [shapeCast_self, matmul]
  rw [Ideal.matmul_constant_zero_apply, ← Equiv.sum_comp (ValueIdx.contrEquiv1 dot_S512x64_S64x1024_S512x1024_1_0_0_1_n_n 64 rfl rfl).symm]
  refine Finset.sum_congr rfl fun k _ => ?_
  have hk := ValueIdx.contrEquiv1_symm_val dot_S512x64_S64x1024_S512x1024_1_0_0_1_n_n 64 rfl rfl k
  have el : dot_S512x64_S64x1024_S512x1024_1_0_0_1_n_n.lhsIdx (ix2 p q) ((ValueIdx.contrEquiv1 dot_S512x64_S64x1024_S512x1024_1_0_0_1_n_n 64 rfl rfl).symm k) = ix2 p k := funext fun a => Fin.ext (by
    match a with
    | ⟨0, _⟩ => exact lhs_pay3_0 _ _
    | ⟨1, _⟩ => exact (lhs_pay3_1 _ _).trans hk)
  have er : dot_S512x64_S64x1024_S512x1024_1_0_0_1_n_n.rhsIdx (ix2 p q) ((ValueIdx.contrEquiv1 dot_S512x64_S64x1024_S512x1024_1_0_0_1_n_n 64 rfl rfl).symm k) = ix2 k q := funext fun a => Fin.ext (by
    match a with
    | ⟨0, _⟩ => exact (rhs_pay3_0 _ _).trans hk
    | ⟨1, _⟩ => exact rhs_pay3_1 _ _)
  rw [el, er]
  rw [transpose_apply [1, 0] _ transposes_S1024x64_p1_0_S64x1024 (ix2 k q) (ix2 q k) (fun b => match b with
    | ⟨0, _⟩ => rfl
    | ⟨1, _⟩ => rfl)]
  rfl

end Cert.KernelIdeal.Payload
-- ==== Proof.KBlocks.lean ====
/-
  WHAT THE REGION FINDS IN ITS INPUT ARRAYS AND BLOCKS.
  Before the region the host gathers 1024 user rows (at ids wrapped once when negative) and appends 352 zero rows to
  the item table. Here the two arrays the region's first two windows read are named as composed terms over the launch
  contents, the grid's 196 points are split into their two coordinates (t / 98, t % 98), and one element of each input
  window's block at point t is read off its array: row 512·(t / 98) + p of the gathered rows and of the history
  array, row 1024·(t % 98) + q of the padded table. Last, the padded table at one element: the table's below row
  100000, zero from there on.
-/
import proofs.«416926_j9612136808809_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost
import Idealize.ShloMosaic.PureOps.Ideal.Laws

noncomputable section

namespace Cert.KernelIdeal.Blocks

open Cert.KernelIdeal Cert.KernelIdeal.Gen Idealize.ShloMosaic Idealize.ShloMosaic.TcCoe Idealize.ShloMosaic.ValueIdx
open Idealize.SL.Sem

variable {F : FTy → Type} [FloatOps F] (m : (ℓ : Loc nD τ sig) → Buf (Elt F) ℓ)

/-! ## The two arrays the host prepares -/

/-- The gathered user rows: the user table's rows at the ids, an id below zero raised by 100000 first. The array
    window 0 reads. -/
def selArr (c : Dev nD) : FVec F S1024x64 .f32 :=
  Host.gather gather_S100000x64_S1024x1_S1024x64_1_0_n_n_0_1_164 (m ((c.tc : Thread nD τ).loc main_arg0))
    (broadcastInDim S1024x1 ![0] bcast_S1024_S1024x1_0
      (select
        (cmpi .slt (m ((c.tc : Thread nD τ).loc main_arg2)) (broadcastInDim S1024 ![] bcast_S_S1024 (constantI S_ 32 0#32)))
        (addi (m ((c.tc : Thread nD τ).loc main_arg2)) (broadcastInDim S1024 ![] bcast_S_S1024 (constantI S_ 32 100000#32)))
        (m ((c.tc : Thread nD τ).loc main_arg2))))

/-- The item table with 352 zero rows appended: the array window 1 reads. -/
def padArr (c : Dev nD) : FVec F S100352x64 .f32 :=
  pad S100352x64 ![0, 0] ![352, 0] ![0, 0] (m ((c.tc : Thread nD τ).loc main_arg1)) (sitofp .f32 (constantI S_ 32 0#32))
    pads_S100000x64_S100352x64_03520_000 h_S_

/-- The region finds the gathered rows in window 0's array. -/
theorem V_v6 (c : Dev nD) : (V m c main_v6 : S1024x64.Idx → Elt F .f32) = selArr m c := by
  unfold selArr
  dsimp only [Gen.V, Gen.V0]
  simp only [Gen.hostOps0, Gen.hostOps0_1, List.flatten_cons, List.flatten_nil, List.append_nil, List.cons_append,
    List.nil_append]
  after_results

/-- The region finds the padded item table in window 1's array. -/
theorem V_v7 (c : Dev nD) : (V m c main_v7 : S100352x64.Idx → Elt F .f32) = padArr m c := by
  unfold padArr
  dsimp only [Gen.V, Gen.V0]
  simp only [Gen.hostOps0, Gen.hostOps0_1, List.flatten_cons, List.flatten_nil, List.append_nil, List.cons_append,
    List.nil_append]
  after_results
  simp only [StableHlo.TRef.ofBuf, StableHlo.TRef.toBuf, cast_eq]

/-! ## The grid's points -/

/-- Point t's first coordinate is t / 98. -/
theorem coords0 (t : Fin cfg0.N) : (grid0.coords t 0).val = t.val / 98 :=
  (by decide +kernel : ∀ t : Fin grid0.N, (grid0.coords t 0).val = t.val / 98) t

/-- Point t's second coordinate is t % 98. -/
theorem coords1 (t : Fin cfg0.N) : (grid0.coords t 1).val = t.val % 98 :=
  (by decide +kernel : ∀ t : Fin grid0.N, (grid0.coords t 1).val = t.val % 98) t

/-- Window 0's block index at point t: (t / 98, 0). -/
theorem index0 : ∀ t : Fin cfg0.N, win0_0.index t 0 = t.val / 98 ∧ win0_0.index t 1 = 0 :=
  (by decide +kernel : ∀ t : Fin grid0.N, win0_0.index t 0 = t.val / 98 ∧ win0_0.index t 1 = 0)

/-- Window 1's block index at point t: (t % 98, 0). -/
theorem index1 : ∀ t : Fin cfg0.N, win0_1.index t 0 = t.val % 98 ∧ win0_1.index t 1 = 0 :=
  (by decide +kernel : ∀ t : Fin grid0.N, win0_1.index t 0 = t.val % 98 ∧ win0_1.index t 1 = 0)

/-- Window 2's block index at point t: (t / 98, 0). -/
theorem index2 : ∀ t : Fin cfg0.N, win0_2.index t 0 = t.val / 98 ∧ win0_2.index t 1 = 0 :=
  (by decide +kernel : ∀ t : Fin grid0.N, win0_2.index t 0 = t.val / 98 ∧ win0_2.index t 1 = 0)

/-! ## One element of an input block -/

/-- Element (p, k) of window 0's block at point t is row 512·(t / 98) + p, column k of the gathered rows. -/
theorem ublk_apply (c : Dev nD) (t : Fin cfg0.N) (p : Fin 512) (k : Fin 64) (h : 512 * (t.val / 98) + p.val < 1024) :
    (iblk m c 0 t : Vec F S512x64 .f32) (ix2 p k) = V m c main_v6 (ix2 ⟨512 * (t.val / 98) + p.val, h⟩ k) := by
  unfold iblk
  rw [View.read_apply]
  show V m c main_v6 _ = V m c main_v6 _
  congr 1
  funext a
  apply Fin.ext
  match a with
  | ⟨0, _⟩ => show win0_0.index t 0 * 512 + 1 * p.val = 512 * (t.val / 98) + p.val; rw [(index0 t).1]; omega
  | ⟨1, _⟩ => show win0_0.index t 1 * 64 + 1 * k.val = k.val; rw [(index0 t).2]; omega

/-- Element (q, k) of window 1's block at point t is row 1024·(t % 98) + q, column k of the padded item table. -/
theorem vblk_apply (c : Dev nD) (t : Fin cfg0.N) (q : Fin 1024) (k : Fin 64) (h : 1024 * (t.val % 98) + q.val < 100352) :
    (iblk m c 1 t : Vec F S1024x64 .f32) (ix2 q k) = V m c main_v7 (ix2 ⟨1024 * (t.val % 98) + q.val, h⟩ k) := by
  unfold iblk
  rw [View.read_apply]
  show V m c main_v7 _ = V m c main_v7 _
  congr 1
  funext a
  apply Fin.ext
  match a with
  | ⟨0, _⟩ => show win0_1.index t 0 * 1024 + 1 * q.val = 1024 * (t.val % 98) + q.val; rw [(index1 t).1]; omega
  | ⟨1, _⟩ => show win0_1.index t 1 * 64 + 1 * k.val = k.val; rw [(index1 t).2]; omega

/-- Element (p, k) of window 2's block at point t is row 512·(t / 98) + p, column k of the history array as launched. -/
theorem sblk_apply (c : Dev nD) (t : Fin cfg0.N) (p : Fin 512) (k : Fin 50) (h : 512 * (t.val / 98) + p.val < 1024) :
    (iblk m c 2 t : Vec F S512x50 .i32) (ix2 p k)
      = m ((c.tc : Thread nD τ).loc main_arg3) (ix2 ⟨512 * (t.val / 98) + p.val, h⟩ k) := by
  unfold iblk
  rw [View.read_apply]
  show V m c main_arg3 _ = m ((c.tc : Thread nD τ).loc main_arg3) _
  rw [V_main_arg3]
  congr 1
  funext a
  apply Fin.ext
  match a with
  | ⟨0, _⟩ => show win0_2.index t 0 * 512 + 1 * p.val = 512 * (t.val / 98) + p.val; rw [(index2 t).1]; omega
  | ⟨1, _⟩ => show win0_2.index t 1 * 50 + 1 * k.val = k.val; rw [(index2 t).2]; omega

/-! ## The padded table at one element -/

/-- Below row 100000 the padded table is the item table. -/
theorem padArr_lt (m : (ℓ : Loc nD τ sig) → Buf (Elt Ideal) ℓ) (c : Dev nD) (c' : Fin 100352) (k : Fin 64)
    (h : c'.val < 100000) :
    padArr (F := Ideal) m c (ix2 c' k) = m ((c.tc : Thread nD τ).loc main_arg1) (ix2 ⟨c'.val, h⟩ k) := by
  unfold padArr
  exact pad_apply_of_inside _ _ _ _ _ pads_S100000x64_S100352x64_03520_000 h_S_ _ (ix2 (⟨c'.val, h⟩ : Fin 100000) k)
    (fun a => match a with
      | ⟨0, _⟩ => by show c'.val = 0 + c'.val * (0 + 1); omega
      | ⟨1, _⟩ => by show k.val = 0 + k.val * (0 + 1); omega)

/-- From row 100000 on the padded table is zero. -/
theorem padArr_ge (m : (ℓ : Loc nD τ sig) → Buf (Elt Ideal) ℓ) (c : Dev nD) (c' : Fin 100352) (k : Fin 64)
    (h : 100000 ≤ c'.val) :
    padArr (F := Ideal) m c (ix2 c' k) = (0 : EReal) := by
  unfold padArr
  refine (pad_apply_of_not_inside _ _ _ _ _ pads_S100000x64_S100352x64_03520_000 h_S_ _ (0 : Fin 2) ?_).trans ?_
  · intro hin
    have h3 : (c'.val - 0) / (0 + 1) < 100000 := hin.2.2
    omega
  · exact sitofp_zero

/-! ## Axiom pins -/

/-- info: 'Cert.KernelIdeal.Blocks.V_v6' depends on axioms: [propext, Classical.choice, Quot.sound] -/
#guard_msgs (whitespace := lax) in #print axioms V_v6
/-- info: 'Cert.KernelIdeal.Blocks.V_v7' depends on axioms: [propext, Classical.choice, Quot.sound] -/
#guard_msgs (whitespace := lax) in #print axioms V_v7
/-- info: 'Cert.KernelIdeal.Blocks.ublk_apply' depends on axioms: [propext, Classical.choice, Quot.sound] -/
#guard_msgs (whitespace := lax) in #print axioms ublk_apply
/-- info: 'Cert.KernelIdeal.Blocks.vblk_apply' depends on axioms: [propext, Classical.choice, Quot.sound] -/
#guard_msgs (whitespace := lax) in #print axioms vblk_apply
/-- info: 'Cert.KernelIdeal.Blocks.sblk_apply' depends on axioms: [propext, Classical.choice, Quot.sound] -/
#guard_msgs (whitespace := lax) in #print axioms sblk_apply
/-- info: 'Cert.KernelIdeal.Blocks.padArr_lt' depends on axioms: [propext, Classical.choice, Quot.sound] -/
#guard_msgs (whitespace := lax) in #print axioms padArr_lt
/-- info: 'Cert.KernelIdeal.Blocks.padArr_ge' depends on axioms: [propext, Classical.choice, Quot.sound] -/
#guard_msgs (whitespace := lax) in #print axioms padArr_ge

end Cert.KernelIdeal.Blocks

end
-- ==== Proof.SumLaw.lean ====
/-
  REGROUPING A SUM OVER TILES.

  A table with 1024 rows and 100352 columns is cut into 2 × 98 tiles of 512 rows by 1024 columns; tile t (t < 196, taken
  in the order t = 98·i + j) holds the rows 512·(t/98) + p and the columns 1024·(t%98) + q. In a commutative monoid,
  adding tile by tile is adding the whole table: a number below a·b is uniquely b·i + p with i < a and p < b, so a sum
  over Fin (a·b) is the double sum over Fin a and Fin b; this is used three times (tiles, rows, columns) and the four
  sums are reordered. Columns from 100000 on contribute nothing when the entries there are zero: Fin (a + b) splits into
  its first a and its last b members. Last, a left-nested running total is the sum of its terms.
-/
import Idealize.ShloMosaic.Lib.ValueIdx
import Mathlib.Algebra.BigOperators.Fin
import Mathlib.Logic.Equiv.Fin.Basic

open scoped BigOperators

namespace MFLoss.SumLaw

/-- a number below a·b is b·i + p with i < a, p < b, once: the sum over Fin (a·b) is the double sum -/
theorem sum_fin_mul {M : Type*} [AddCommMonoid M] (a b n : ℕ) (h : a * b = n) (f : ℕ → M) :
    ∑ i : Fin a, ∑ p : Fin b, f (b * i.val + p.val) = ∑ r : Fin n, f r.val := by
  subst h
  rw [← Fintype.sum_prod_type']
  refine Fintype.sum_equiv finProdFinEquiv _ _ ?_
  rintro ⟨i, p⟩
  simp only [finProdFinEquiv_apply_val]
  rw [add_comm]

/-- the same, the outer index running over a range and read back as quotient and remainder -/
theorem sum_range_mul {M : Type*} [AddCommMonoid M] (a b n : ℕ) (h : a * b = n) (H : ℕ → ℕ → M) :
    ∑ t ∈ Finset.range n, H (t / b) (t % b) = ∑ i : Fin a, ∑ j : Fin b, H i.val j.val := by
  rw [Finset.sum_range, ← sum_fin_mul a b n h (fun t => H (t / b) (t % b))]
  refine Finset.sum_congr rfl fun i _ => Finset.sum_congr rfl fun j _ => ?_
  have hb : 0 < b := Nat.pos_of_ne_zero fun hb0 => by
    have := j.isLt
    omega
  rw [Nat.mul_add_div hb, Nat.mul_add_mod, Nat.div_eq_of_lt j.isLt, Nat.mod_eq_of_lt j.isLt, Nat.add_zero]

theorem sum_tiles {M : Type*} [AddCommMonoid M] (g : ℕ → ℕ → M) :
    ∑ t ∈ Finset.range 196, ∑ p : Fin 512, ∑ q : Fin 1024, g (512 * (t / 98) + p.val) (1024 * (t % 98) + q.val)
      = ∑ r : Fin 1024, ∑ c : Fin 100352, g r.val c.val := by
  rw [sum_range_mul 2 98 196 (by norm_num)
    (fun i j => ∑ p : Fin 512, ∑ q : Fin 1024, g (512 * i + p.val) (1024 * j + q.val))]
  rw [← sum_fin_mul 2 512 1024 (by norm_num) (fun r => ∑ c : Fin 100352, g r c.val)]
  refine Finset.sum_congr rfl fun i _ => ?_
  rw [Finset.sum_comm]
  refine Finset.sum_congr rfl fun p _ => ?_
  exact sum_fin_mul 98 1024 100352 (by norm_num) (fun c => g (512 * i.val + p.val) c)

/-- Fin (a + b) is its first a members and its last b: zero entries on the last b drop out -/
theorem sum_fin_drop {M : Type*} [AddCommMonoid M] (a b n : ℕ) (h : a + b = n) (g : ℕ → M)
    (hpad : ∀ c, a ≤ c → c < n → g c = 0) :
    ∑ c : Fin n, g c.val = ∑ c : Fin a, g c.val := by
  subst h
  rw [Fin.sum_univ_add]
  have hz : ∑ c : Fin b, g (Fin.natAdd a c).val = 0 :=
    Finset.sum_eq_zero fun c _ => hpad _ (by simp) (Fin.natAdd a c).isLt
  rw [hz, add_zero]
  rfl

theorem sum_cols_drop_pad {M : Type*} [AddCommMonoid M] (g : ℕ → M) (hpad : ∀ c, 100000 ≤ c → c < 100352 → g c = 0) :
    ∑ c : Fin 100352, g c.val = ∑ c : Fin 100000, g c.val :=
  sum_fin_drop 100000 352 100352 (by norm_num) g hpad

/-- the two together, in the form the kernel's accumulation meets the reference's total -/
theorem sum_tiles_eq_table {M : Type*} [AddCommMonoid M] (g : ℕ → ℕ → M)
    (hpad : ∀ r c, 100000 ≤ c → c < 100352 → g r c = 0) :
    ∑ t ∈ Finset.range 196, ∑ p : Fin 512, ∑ q : Fin 1024, g (512 * (t / 98) + p.val) (1024 * (t % 98) + q.val)
      = ∑ r : Fin 1024, ∑ c : Fin 100000, g r.val c.val := by
  rw [sum_tiles]
  exact Finset.sum_congr rfl fun r _ => sum_cols_drop_pad (g r.val) (hpad r.val)

/-- a left-nested running total is the sum: acc 0 = z + T 0, acc (n+1) = acc n + T (n+1) -/
theorem chain_eq_sum {M : Type*} [AddCommMonoid M] (z : M) (T : ℕ → M) (acc : ℕ → M)
    (h0 : acc 0 = z + T 0) (hs : ∀ n, acc (n + 1) = acc n + T (n + 1)) (n : ℕ) :
    acc n = z + ∑ t ∈ Finset.range (n + 1), T t := by
  induction n with
  | zero => rw [h0, Finset.sum_range_one]
  | succ k ih => rw [hs, ih, Finset.sum_range_succ _ (k + 1), add_assoc]

end MFLoss.SumLaw
-- ==== Proof.KLoss.lean ====
/-
  THE KERNEL'S TOTAL IS THE LOSS. Tile t (rows 512·(t/98) + p, columns 1024·(t%98) + q of the 1024 × 100352 padded
  table) contributes the sum of its entries' contributions; the running total after the last tile is the zero it started
  from plus all 196 tile totals; summing tile by tile is summing the whole padded table; and a padded column contributes
  nothing, because its item row is zero (so the score is 0 and its square 0) and no history word, being below 100000,
  names it. What remains is the sum over the 1024 × 100000 real entries of the specification's contribution.
-/
import proofs.«416926_j9612136808809_1_alg».proof.Proof.KAcc
import proofs.«416926_j9612136808809_1_alg».proof.Proof.KTile
import proofs.«416926_j9612136808809_1_alg».proof.Proof.KMatmul
import proofs.«416926_j9612136808809_1_alg».proof.Proof.KBlocks
import proofs.«416926_j9612136808809_1_alg».proof.Proof.SumLaw
import proofs.«416926_j9612136808809_1_alg».proof.Proof.Spec
import proofs.«416926_j9612136808809_1_alg».proof.Proof.WordFacts

noncomputable section

open scoped BigOperators
open Idealize.ShloMosaic Idealize.ShloMosaic.TcCoe Idealize.ShloMosaic.ValueIdx Idealize.SL.Sem

namespace Cert.KernelIdeal.Loss

open Cert.KernelIdeal Cert.KernelIdeal.Gen Cert.KernelIdeal.Tile Cert.KernelIdeal.Pieces Cert.KernelIdeal.Acc
  Cert.KernelIdeal.Blocks Cert.KernelIdeal.Payload MFLoss

variable (m : (ℓ : Loc nD τ sig) → Buf (Elt Ideal) ℓ)

/-- The literal 1.0 both programs subtract, kept as its word's value. -/
abbrev one : EReal := Ideal.ofBits .f32 0x3F800000#32

/-- The arrays the sums range over, by their literal types: the gathered user rows, the padded item table, the item
    table, the history words. -/
abbrev selA (c : Dev nD) : SSel.Idx → EReal := selArr m c
abbrev padA (c : Dev nD) : (⟨2, ![100352, 64]⟩ : Shape).Idx → EReal := padArr m c
abbrev itemA (c : Dev nD) : SItem.Idx → EReal := m ((c.tc : Thread nD τ).loc main_arg1)
abbrev seqA (c : Dev nD) : SSeq.Idx → BitVec 32 := m ((c.tc : Thread nD τ).loc main_arg3)

open Classical in
/-- Entry (r, c') of the padded table's contributions, by natural-number coordinates (0 outside the table). -/
def g (c : Dev nD) (r c' : ℕ) : EReal :=
  if h : r < 1024 ∧ c' < 100352 then
    sq one (∃ k : Fin 50, seqA m c (ix2 ⟨r, h.1⟩ k) = BitVec.ofNat 32 c')
      (∑ k : Fin 64, selA m c (ix2 ⟨r, h.1⟩ k) * padA m c (ix2 ⟨c', h.2⟩ k))
  else 0

/-- Tile t's total is the sum of its entries' contributions. -/
theorem tile_eq (c : Dev nD) (t : Fin cfg0.N) :
    tileTotal (F := Ideal) (grid0.coords t) (k0_pay3 (ublk m c t) (vblk m c t)) (sblk m c t) (ix2 0 0)
      = ∑ p : Fin 512, ∑ q : Fin 1024, g m c (512 * (t.val / 98) + p.val) (1024 * (t.val % 98) + q.val) := by
  have hN : t.val < 196 := lt_of_lt_of_eq t.isLt N_0
  rw [tileTotal_apply]
  simp only [Ideal.ofBits_zero_f32, zero_add]
  refine Finset.sum_congr rfl fun p _ => Finset.sum_congr rfl fun q _ => ?_
  have hr : 512 * (t.val / 98) + p.val < 1024 := by have := p.isLt; omega
  have hc : 1024 * (t.val % 98) + q.val < 100352 := by have := q.isLt; omega
  unfold g
  rw [dif_pos ⟨hr, hc⟩, pay3_apply]
  refine (sq_congr _ ?_ _).trans (congrArg _ ?_)
  · rw [coords1 t]
    refine exists_congr fun k => ?_
    rw [show sblk m c t (ix2 p k) = seqA m c (ix2 ⟨512 * (t.val / 98) + p.val, hr⟩ k) from sblk_apply m c t p k hr]
  · refine Finset.sum_congr rfl fun k _ => ?_
    rw [show ublk m c t (ix2 p k) = selA m c (ix2 ⟨512 * (t.val / 98) + p.val, hr⟩ k) from
        (ublk_apply m c t p k hr).trans (congrFun (V_v6 m c) _),
      show vblk m c t (ix2 q k) = padA m c (ix2 ⟨1024 * (t.val % 98) + q.val, hc⟩ k) from
        (vblk_apply m c t q k hc).trans (congrFun (V_v7 m c) _)]

/-- One step of the running total, at its one entry: the total found plus the tile's. -/
theorem step_apply (i : grid0.Coords) (x0 : Vec Ideal S512x64 .f32) (x1 : Vec Ideal S1024x64 .f32) (x2 : Vec Ideal S512x50 .i32)
    (prev : Vec Ideal S1x1 .f32) :
    step (F := Ideal) i x0 x1 x2 prev (ix2 0 0)
      = (prev (ix2 0 0) : EReal) + tileTotal (F := Ideal) i (k0_pay3 x0 x1) x2 (ix2 0 0) := by
  unfold step k0_pay1
  simp only [shapeCast_self]
  rfl

/-- The zero the first point stores. -/
theorem zero_apply : (k0_pay2 (F := Ideal) (ix2 0 0) : EReal) = Ideal.ofBits .f32 0x00000000#32 := by
  unfold k0_pay2
  simp only [shapeCast_self]
  rfl

/-- Tile t's total, for every natural number t (0 past the grid). -/
def TN (c : Dev nD) (t : ℕ) : EReal :=
  if h : t < cfg0.N then
    tileTotal (F := Ideal) (grid0.coords ⟨t, h⟩) (k0_pay3 (ublk m c ⟨t, h⟩) (vblk m c ⟨t, h⟩)) (sblk m c ⟨t, h⟩) (ix2 0 0)
  else 0

/-- The running total as a plain recursion over the natural numbers. -/
def accN (c : Dev nD) : ℕ → EReal
  | 0 => Ideal.ofBits .f32 0x00000000#32 + TN m c 0
  | n + 1 => accN c n + TN m c (n + 1)

theorem acc_eq (c : Dev nD) : ∀ (n : ℕ) (h : n < cfg0.N), (acc m c n h (ix2 0 0) : EReal) = accN m c n
  | 0, h => by
    simp only [acc, accN]
    rw [step_apply, zero_apply]
    unfold TN; rw [dif_pos h]
  | n + 1, h => by
    simp only [acc, accN]
    rw [step_apply, acc_eq c n]
    unfold TN; rw [dif_pos h]

/-- A padded column contributes nothing. -/
theorem g_pad (c : Dev nD) (hr : ∀ i, 0 ≤ (seqA m c i).toInt ∧ (seqA m c i).toInt < 100000)
    (r c' : ℕ) (h0 : 100000 ≤ c') (h1 : c' < 100352) : g m c r c' = 0 := by
  unfold g
  by_cases h : r < 1024 ∧ c' < 100352
  · rw [dif_pos h]
    have hs : (∑ k : Fin 64, selA m c (ix2 ⟨r, h.1⟩ k) * padA m c (ix2 ⟨c', h.2⟩ k)) = 0 :=
      Finset.sum_eq_zero fun k _ => by
        rw [show padA m c (ix2 ⟨c', h.2⟩ k) = 0 from padArr_ge m c ⟨c', h.2⟩ k h0, mul_zero]
    have hn : ¬ ∃ k : Fin 50, seqA m c (ix2 ⟨r, h.1⟩ k) = BitVec.ofNat 32 c' := by
      rintro ⟨k, hk⟩
      have := (MFLoss.Word.eq_ofNat_iff_toInt _ c' (by omega)).mp hk
      have := (hr (ix2 ⟨r, h.1⟩ k)).2
      omega
    rw [hs, sq_congr one (b' := False) (iff_false_intro hn)]
    unfold MFLoss.sq
    rw [if_neg not_false, mul_zero]
  · rw [dif_neg h]

/-- A real column contributes the specification's term. -/
theorem g_in (c : Dev nD) (r : Fin 1024) (c' : Fin 100000) :
    g m c r.val c'.val = term one (selA m c) (itemA m c) (seqA m c) r c' := by
  have h : r.val < 1024 ∧ c'.val < 100352 := ⟨r.isLt, by have := c'.isLt; omega⟩
  unfold g
  rw [dif_pos h]
  unfold term
  have hs : (∑ k : Fin 64, selA m c (ix2 ⟨r.val, h.1⟩ k) * padA m c (ix2 ⟨c'.val, h.2⟩ k))
      = score (selA m c) (itemA m c) r c' := by
    unfold score
    refine Finset.sum_congr rfl fun k _ => ?_
    rw [show padA m c (ix2 ⟨c'.val, h.2⟩ k) = itemA m c (ix2 c' k) from padArr_lt m c ⟨c'.val, h.2⟩ k c'.isLt]
  rw [hs]
  have hb : (∃ k : Fin 50, seqA m c (ix2 ⟨r.val, h.1⟩ k) = BitVec.ofNat 32 c'.val) ↔ hit (seqA m c) r c'.val := by
    unfold hit
    exact exists_congr fun k => MFLoss.Word.eq_ofNat_iff_toInt _ c'.val (by have := c'.isLt; omega)
  unfold MFLoss.sq
  by_cases hh : hit (seqA m c) r c'.val
  · rw [if_pos hh, if_pos (hb.mpr hh)]
  · rw [if_neg hh, if_neg (fun x => hh (hb.mp x))]

/-- THE TOTAL. With every history word in [0, 100000), the running total after the last point is the zero word's
    value plus the loss. -/
theorem total_eq (c : Dev nD) (hr : ∀ i, 0 ≤ (seqA m c i).toInt ∧ (seqA m c i).toInt < 100000) :
    (total m c (ix2 0 0) : EReal)
      = Ideal.ofBits .f32 0x00000000#32 + loss one (selA m c) (itemA m c) (seqA m c) := by
  refine (acc_eq m c 195 _).trans ?_
  refine (SumLaw.chain_eq_sum (Ideal.ofBits .f32 0x00000000#32) (TN m c) (accN m c) rfl (fun n => rfl) 195).trans ?_
  refine congrArg (fun s => Ideal.ofBits .f32 0x00000000#32 + s) ?_
  have ht : ∀ t ∈ Finset.range (195 + 1), TN m c t
      = ∑ p : Fin 512, ∑ q : Fin 1024, g m c (512 * (t / 98) + p.val) (1024 * (t % 98) + q.val) := fun t ht => by
    have h : t < cfg0.N := by rw [show cfg0.N = 196 from N_0]; exact Finset.mem_range.mp ht
    unfold TN; rw [dif_pos h]; exact tile_eq m c ⟨t, h⟩
  refine (Finset.sum_congr rfl ht).trans ?_
  refine (SumLaw.sum_tiles_eq_table (g m c) (g_pad m c hr)).trans ?_
  unfold loss
  exact Finset.sum_congr rfl fun r _ => Finset.sum_congr rfl fun c' _ => g_in m c r c'

end Cert.KernelIdeal.Loss

end
-- ==== Proof.KFinal3.lean ====
/-
  THE FIRST OUTPUT ARRAY AFTER THE RUN, as one function of the arrays.

  The grid has 2 × 98 points; point t has coordinates i = t / 98 and j = t % 98. At every point the body stores a
  512 × 1024 tile of scores into the first output's block, and that block, with block index (i, j), is written back at
  every point. The tile is the product of the point's 512 × 64 block of user rows with the transpose of its 1024 × 64
  block of item rows: entry (p, q) is the inner product of user row 512·i + p and item row 1024·j + q. A block's entry
  (p, q) sits in the array at (512·i + p, 1024·j + q) — block index times block size plus the place inside the block —
  so what each point writes back is its block of ONE table, the table of all inner products of a user row and an item
  row. Every entry (r, c') of the 1024 × 100352 array lies in the block of the point t = 98·(r / 512) + c' / 1024, so
  after the run the array holds that table.
-/
import proofs.«416926_j9612136808809_1_alg».proof.Proof.Gen.KernelIdeal.Frame
import proofs.«416926_j9612136808809_1_alg».proof.Proof.KPieces
import proofs.«416926_j9612136808809_1_alg».proof.Proof.KMatmul
import proofs.«416926_j9612136808809_1_alg».proof.Proof.KBlocks
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.KernelIdeal.Final3

open Cert.KernelIdeal Cert.KernelIdeal.Gen

/-- what point t leaves in the first output's block: the score tile of the point's user and item blocks (any float instance) -/
theorem out3_eq {F : FTy → Type} [FloatOps F] (m : (ℓ : Loc nD τ sig) → Buf (Elt F) ℓ) (c : Dev nD) (t : Fin cfg0.N) :
    (outsAt0 m c t.val t.isLt).1 = k0_pay3 (iblk m c 0 t) (iblk m c 1 t) := by
  have hN : t.val < 196 := lt_of_lt_of_eq t.isLt N_0
  by_cases h0 : t.val % 196 = 0
  · by_cases h1 : t.val % 196 = 195
    · omega
    · rw [outsAt0_A m c t h0 h1]
      dsimp only
      exact Pieces.out3_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t)
  · by_cases h1 : t.val % 196 = 195
    · rw [outsAt0_C m c t h0 h1]
      dsimp only
      exact Pieces.out3_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2
    · rw [outsAt0_B m c t h0 h1]
      dsimp only
      exact Pieces.out3_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2

variable (m : (ℓ : Loc nD τ sig) → Buf (Elt Ideal) ℓ)

/-- the array of user rows that window 0 reads, and the array of item rows that window 1 reads, as tables of extended reals -/
abbrev userArr (c : Dev nD) : S1024x64.Idx → EReal := V m c main_v6
abbrev itemArr (c : Dev nD) : S100352x64.Idx → EReal := V m c main_v7

/-- the whole score table: entry (r, c') is the inner product of row r of the array window 0 reads and row c' of the array window 1 reads -/
def scoreTable (c : Dev nD) : S1024x100352.Idx → EReal := fun j => ∑ k : Fin 64, userArr m c (ix2 (j 0) k) * itemArr m c (ix2 (j 1) k)

theorem scoreTable_apply (c : Dev nD) (r : Fin 1024) (c' : Fin 100352) :
    scoreTable m c (ix2 r c') = ∑ k : Fin 64, userArr m c (ix2 r k) * itemArr m c (ix2 c' k) := rfl

/-- one entry of a tile: when row p of the user block is row r of the user array and row q of the item block is row
    c' of the item array, entry (p, q) of the tile is the inner product of those two rows -/
theorem tile_entry (x0 : Vec Ideal S512x64 .f32) (x1 : Vec Ideal S1024x64 .f32) (A : S1024x64.Idx → EReal) (B : S100352x64.Idx → EReal)
    (p : Fin 512) (q : Fin 1024) (r : Fin 1024) (c' : Fin 100352)
    (hu : ∀ k : Fin 64, x0 (ix2 p k) = A (ix2 r k)) (hv : ∀ k : Fin 64, x1 (ix2 q k) = B (ix2 c' k)) :
    k0_pay3 (F := Ideal) x0 x1 (ix2 p q) = ∑ k : Fin 64, A (ix2 r k) * B (ix2 c' k) := by
  rw [Payload.pay3_apply]
  exact Finset.sum_congr rfl fun k _ => by rw [hu k, hv k]

/-- the first output's block index at point t is (t / 98, t % 98), decided over the 196 points -/
theorem idx_facts : ∀ t : Fin cfg0.N, win0_3.index t (0 : Fin 2) = t.val / 98 ∧ win0_3.index t (1 : Fin 2) = t.val % 98 :=
  (by decide +kernel : ∀ t : Fin grid0.N, win0_3.index t (0 : Fin 2) = t.val / 98 ∧ win0_3.index t (1 : Fin 2) = t.val % 98)

/-- entry (p, q) of point t's block sits in the array at row 512·(t / 98) + p -/
theorem emb_row (t : Fin cfg0.N) (p : Fin 512) (q : Fin 1024) :
    ((((cfg0.win 3).blk t).view.emb (ix2 p q)) (0 : Fin 2)).val = 512 * (t.val / 98) + p.val := by
  show win0_3.index t (0 : Fin 2) * 512 + 1 * p.val = _
  rw [(idx_facts t).1]; omega

/-- and at column 1024·(t % 98) + q -/
theorem emb_col (t : Fin cfg0.N) (p : Fin 512) (q : Fin 1024) :
    ((((cfg0.win 3).blk t).view.emb (ix2 p q)) (1 : Fin 2)).val = 1024 * (t.val % 98) + q.val := by
  show win0_3.index t (1 : Fin 2) * 1024 + 1 * q.val = _
  rw [(idx_facts t).2]; omega

/-- WHAT POINT t WRITES BACK is block t of the score table. -/
theorem flushed_eq (c : Dev nD) (t : Fin cfg0.N) :
    (dats m 0 c).flushed 3 t = ((cfg0.win 3).blk t).view.read (Elt Ideal) (scoreTable m c) := by
  show (cfg0.win 3).cut (grid0.coords t) ((dats m 0 c).after 3 t) = _
  rw [after0_3, out3_eq]
  funext y
  obtain ⟨p, q, rfl⟩ : ∃ (p : Fin 512) (q : Fin 1024), y = ix2 p q := ⟨y 0, y 1, eq_ix2 y⟩
  show k0_pay3 (F := Ideal) (iblk m c 0 t) (iblk m c 1 t) (ix2 p q) = scoreTable m c (((cfg0.win 3).blk t).view.emb (ix2 p q))
  have hN : t.val < 196 := lt_of_lt_of_eq t.isLt N_0
  have hr := emb_row t p q
  have hc := emb_col t p q
  have hrlt : 512 * (t.val / 98) + p.val < 1024 := by have := p.isLt; omega
  have hclt : 1024 * (t.val % 98) + q.val < 100352 := by have := q.isLt; omega
  refine tile_entry _ _ _ _ p q _ _ (fun k => ?_) (fun k => ?_)
  · rw [Blocks.ublk_apply m c t p k hrlt]
    congr 2
    exact Fin.ext hr.symm
  · rw [Blocks.vblk_apply m c t q k hclt]
    congr 2
    exact Fin.ext hc.symm

/-- An entry of the array is in point t's block iff each coordinate is in the block's range on its axis. -/
theorem mem_blk (t : Fin cfg0.N) (i : S1024x100352.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v8_0).slice (win0_3.rect t)).set ↔ _
  rw [View.set_slice_whole, Rect.mem_set_unit]
  exact Iff.rfl

/-- every entry (r, c') of the array is in the block of the point 98·(r / 512) + c' / 1024 -/
theorem cover (i : S1024x100352.Idx) :
    ∃ t : Fin cfg0.N, (cfg0.win 3).flush t = true ∧ i ∈ ((cfg0.win 3).blk t).view.set := by
  have hr : (i 0).val < 1024 := (i 0).isLt
  have hc : (i 1).val < 100352 := (i 1).isLt
  have hN : cfg0.N = 196 := N_0
  have hlt : 98 * ((i 0).val / 512) + (i 1).val / 1024 < cfg0.N := by rw [hN]; omega
  refine ⟨⟨98 * ((i 0).val / 512) + (i 1).val / 1024, hlt⟩, flush0_3 _, ?_⟩
  rw [mem_blk]
  obtain ⟨e0, e1⟩ := idx_facts ⟨98 * ((i 0).val / 512) + (i 1).val / 1024, hlt⟩
  intro a
  match a with
  | ⟨0, _⟩ =>
    show win0_3.index ⟨98 * ((i 0).val / 512) + (i 1).val / 1024, hlt⟩ (0 : Fin 2) * 512 ≤ (i 0).val ∧ (i 0).val < win0_3.index ⟨98 * ((i 0).val / 512) + (i 1).val / 1024, hlt⟩ (0 : Fin 2) * 512 + 512
    rw [e0]
    show (98 * ((i 0).val / 512) + (i 1).val / 1024) / 98 * 512 ≤ (i 0).val ∧ (i 0).val < (98 * ((i 0).val / 512) + (i 1).val / 1024) / 98 * 512 + 512
    omega
  | ⟨1, _⟩ =>
    show win0_3.index ⟨98 * ((i 0).val / 512) + (i 1).val / 1024, hlt⟩ (1 : Fin 2) * 1024 ≤ (i 1).val ∧ (i 1).val < win0_3.index ⟨98 * ((i 0).val / 512) + (i 1).val / 1024, hlt⟩ (1 : Fin 2) * 1024 + 1024
    rw [e1]
    show (98 * ((i 0).val / 512) + (i 1).val / 1024) % 98 * 1024 ≤ (i 1).val ∧ (i 1).val < (98 * ((i 0).val / 512) + (i 1).val / 1024) % 98 * 1024 + 1024
    omega

/-- after the run the first output array holds it -/
theorem final3 (c : Dev nD) : (dats (F := Ideal) m 0 c).arrAt 3 cfg0.N = scoreTable m c :=
  (dats m 0 c).arrAt_eq_of_cover 3 (scoreTable m c) (fun t _ => flushed_eq m c t) (cover)

end Cert.KernelIdeal.Final3

end
-- ==== Proof.KValue.lean ====
/-
  THE KERNEL'S TWO RESULTS AS THE SPECIFICATION'S FUNCTIONS (at the ideal instance). The loss result is the one entry
  of the second output array, which holds the running total after the last tile: the zero word's value plus the loss.
  The score result keeps columns 0..99999 of the score array, whose entry (r, c') is the inner product of gathered user
  row r and padded item row c': on the kept columns the padded item table is the item table.
-/
import proofs.«416926_j9612136808809_1_alg».proof.Proof.KTail
import proofs.«416926_j9612136808809_1_alg».proof.Proof.KLoss
import proofs.«416926_j9612136808809_1_alg».proof.Proof.KFinal3

noncomputable section

open scoped BigOperators
open Idealize.ShloMosaic Idealize.ShloMosaic.TcCoe Idealize.ShloMosaic.ValueIdx Idealize.SL.Sem

namespace Cert.KernelIdeal.Result

open Cert.KernelIdeal Cert.KernelIdeal.Gen Cert.KernelIdeal.Acc Cert.KernelIdeal.Blocks Cert.KernelIdeal.Loss
  Cert.KernelIdeal.Final3 MFLoss

variable (m : (ℓ : Loc nD τ sig) → Buf (Elt Ideal) ℓ) (ρ : Dev nD → PrngReg)

/-- A 1 × 1 array has one index. -/
theorem idx_S1x1 (a : S1x1.Idx) : a = ix2 0 0 := funext fun d => Fin.ext (by
  match d with
  | ⟨0, _⟩ => have h : (a 0).val < 1 := (a 0).isLt; show (a 0).val = 0; omega
  | ⟨1, _⟩ => have h : (a 1).val < 1 := (a 1).isLt; show (a 1).val = 0; omega)

/-- The loss result. -/
theorem loss_result (c : Dev nD) (hr : ∀ i, 0 ≤ (seqA m c i).toInt ∧ (seqA m c i).toInt < 100000) :
    shapeCast S_ ((dats (F := Ideal) m 0 c).arrAt 4 cfg0.N) shapeCasts_S1x1_S_
      = fun _ => Ideal.ofBits .f32 0x00000000#32 + loss one (selA m c) (itemA m c) (seqA m c) := by
  rw [final4]
  funext i
  unfold shapeCast
  rw [idx_S1x1 (Shape.reshapeEquiv shapeCasts_S1x1_S_ i)]
  exact total_eq m c hr

/-- The score result. -/
theorem score_result (c : Dev nD) :
    extractStridedSlice S1024x100000 ![0, 0] ((dats (F := Ideal) m 0 c).arrAt 3 cfg0.N) slices_S1024x100352_S1024x100000_0_0
      = fun j => score (selA m c) (itemA m c) (j 0) (j 1) := by
  rw [final3]
  funext j
  obtain ⟨r, c', rfl⟩ : ∃ (r : Fin 1024) (c' : Fin 100000), j = ix2 r c' := ⟨j 0, j 1, eq_ix2 j⟩
  have hc : c'.val < 100352 := by have := c'.isLt; omega
  show extractStridedSlice S1024x100000 ![0, 0] (scoreTable m c) slices_S1024x100352_S1024x100000_0_0 (ix2 r c')
    = score (selA m c) (itemA m c) r c'
  unfold extractStridedSlice
  refine (congrArg (scoreTable m c) (?_ : _ = ix2 r (⟨c'.val, hc⟩ : Fin 100352))).trans ?_
  · funext a
    apply Fin.ext
    match a with
    | ⟨0, _⟩ => show 0 + r.val = r.val; omega
    | ⟨1, _⟩ => show 0 + c'.val = c'.val; omega
  · rw [scoreTable_apply]
    unfold score
    refine Finset.sum_congr rfl fun k _ => ?_
    rw [show userArr m c (ix2 r k) = selA m c (ix2 r k) from congrFun (V_v6 m c) _,
      show itemArr m c (ix2 ⟨c'.val, hc⟩ k) = itemA m c (ix2 c' k) from
        (congrFun (V_v7 m c) _).trans (padArr_lt m c ⟨c'.val, hc⟩ k c'.isLt)]

/-- The run, read at the ideal instance: the loss, the score table, the arguments as launched. -/
theorem run (hr : ∀ c i, 0 ≤ (seqA m c i).toInt ∧ (seqA m c i).toInt < 100000) :
    θ_run defs (onTc (τ := τ) (main (F := Ideal))) ⟨m, fun _ => 0, ρ⟩ fun r => ∀ c : Dev nD,
      r.2.mem ((c.tc : Thread nD τ).loc main_v10)
          = (fun _ => Ideal.ofBits .f32 0x00000000#32 + loss one (selA m c) (itemA m c) (seqA m c))
      ∧ r.2.mem ((c.tc : Thread nD τ).loc main_v9) = (fun j => score (selA m c) (itemA m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (loss_result m c (hr c)), (h c).2.1.trans (score_result m c), (h c).2.2⟩)
    (Cert.KernelIdeal.Tail.run m ρ)

end Cert.KernelIdeal.Result

end
-- ==== Proof.lean ====
/-
  A matrix-factorisation loss and its score table. Both programs gather 1024 user rows from the user table by the same
  (wrapped) ids, score every gathered row against every one of the 100000 item rows by an inner product, and add up
  (score − 1)² over the entries (r, c) whose column c is among row r's 50 history words and score² over all others.

  The reference builds the table and a boolean mask (a scatter of `true` at the pairs (row, history word)) whole and
  sums once. The kernel pads the item table with 352 zero rows, walks the 1024 × 100352 table in 2 × 98 tiles of
  512 × 1024, writes each tile of scores out, marks a tile's entries by comparing each row's 50 history words with the
  tile's column numbers, and carries a running total across the tiles; the host then drops the padded columns.

  Over the extended reals (sums commute and associate; nothing is cancelled, so no finiteness is used) the two agree when
  every history word is a column number, 0 ≤ word < 100000: the scatter then sets exactly the marked entries (a
  negative word would be wrapped by the reference and ignored by the kernel; a word in 100000..100351 would be dropped by
  the reference and would mark a padded column of the kernel); a padded column's score is a sum of products with 0, so
  its contribution is 0² = 0; and summing tile by tile is summing the table. That range is the statement's precondition.

  The modules: the specification (Spec), words as column numbers (WordFacts), the precondition read (PreDecode), where a
  scatter of index pairs lands (LibIndexedRows, LibScatterPairs), the reference's two results (RefRun, RefRead,
  RefValue), the kernel's arithmetic at one entry (KVocab, KMatmul, KTile), what one grid point leaves (KPieces), the
  running total (KAcc), the arrays and blocks the region reads (KBlocks), the score array after the run (KFinal3), the
  regrouping of the sum (SumLaw, KLoss), the two host operations after the region (KTail), the kernel's results (KValue).
-/
import proofs.«416926_j9612136808809_1_alg».proof.Defs
import proofs.«416926_j9612136808809_1_alg».proof.Proof.Gen.Kernel
import proofs.«416926_j9612136808809_1_alg».proof.Proof.Gen.Kernel.Skeleton
import proofs.«416926_j9612136808809_1_alg».proof.Proof.Gen.Kernel.Launch
import proofs.«416926_j9612136808809_1_alg».proof.Proof.Gen.Kernel.Points
import proofs.«416926_j9612136808809_1_alg».proof.Proof.Gen.Kernel.Frame
import proofs.«416926_j9612136808809_1_alg».proof.Proof.Gen.KernelIdeal
import proofs.«416926_j9612136808809_1_alg».proof.Proof.Gen.KernelIdeal.Skeleton
import proofs.«416926_j9612136808809_1_alg».proof.Proof.Gen.KernelIdeal.Launch
import proofs.«416926_j9612136808809_1_alg».proof.Proof.Gen.KernelIdeal.Points
import proofs.«416926_j9612136808809_1_alg».proof.Proof.Gen.KernelIdeal.Frame
import proofs.«416926_j9612136808809_1_alg».proof.Proof.Gen.ReferenceIdeal
import proofs.«416926_j9612136808809_1_alg».proof.Proof.Gen.Pre_finite_inputs
import proofs.«416926_j9612136808809_1_alg».proof.Proof.PreDecode
import proofs.«416926_j9612136808809_1_alg».proof.Proof.RefValue
import proofs.«416926_j9612136808809_1_alg».proof.Proof.KValue
import Idealize.ShloMosaic.Adequacy
import Idealize.ShloMosaic.Init

noncomputable section

namespace Cert.Proof

open Idealize.ShloMosaic Idealize.ShloMosaic.ValueIdx Idealize.SL.Sem MFLoss

/-- Every weakly fair execution of the kernel as printed terminates without a fault, its arguments unchanged. -/
theorem frame_k : Cert.frame_Kernel := fun m ρ _ => Cert.Kernel.Gen.frame m ρ

/-- The same of its idealization. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- The user rows both programs gather are one term: the same gather of the same table at the same wrapped ids. -/
theorem sel_eq (m : (ℓ : Loc Cert.KernelIdeal.nD Cert.KernelIdeal.τ Cert.KernelIdeal.sig) → Buf (Elt Ideal) ℓ)
    (c : Dev Cert.KernelIdeal.nD) :
    Cert.ReferenceIdeal.Read.val_main_v6 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
      = Cert.KernelIdeal.Loss.selA m c := rfl

/-- At the ideal instance, from memories that agree on the four arguments and with every history word a column number,
    both programs end with the loss at the zero word's value plus the specification's loss and the score table at the
    specification's scores. -/
theorem algebraic : Cert.algebraic_KernelIdeal_ReferenceIdeal := by
  intro m ρ m' ρ' hpre hagree
  have hr : ∀ (c : Dev Cert.KernelIdeal.nD) i, 0 ≤ (Cert.KernelIdeal.Loss.seqA m c i).toInt
      ∧ (Cert.KernelIdeal.Loss.seqA m c i).toInt < 100000 :=
    fun c i => MFLoss.Pre.seq_range _ _ _ _ (hpre c) i
  refine ⟨fun c => fun _ => Ideal.ofBits .f32 0x00000000#32
      + loss Cert.KernelIdeal.Loss.one (Cert.KernelIdeal.Loss.selA m c) (Cert.KernelIdeal.Loss.itemA m c) (Cert.KernelIdeal.Loss.seqA m c),
    fun c => fun j => score (Cert.KernelIdeal.Loss.selA m c) (Cert.KernelIdeal.Loss.itemA m c) (j 0) (j 1),
    Cert.KernelIdeal.Result.run m ρ hr, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v33_eq (F := Ideal) _ _ _ _).trans ?_
    rw [(hagree c).1, (hagree c).2.1, (hagree c).2.2.1, (hagree c).2.2.2]
    funext i
    rw [Cert.ReferenceIdeal.RefValue.loss_ref _ _ _ _ (hr c) i, sel_eq m c]
  · refine (Cert.ReferenceIdeal.Read.val_main_v8_eq (F := Ideal) _ _ _).trans ?_
    rw [(hagree c).1, (hagree c).2.1, (hagree c).2.2.1]
    funext j
    obtain ⟨r, c', rfl⟩ : ∃ (r : Fin 1024) (c' : Fin 100000), j = ix2 r c' := ⟨j 0, j 1, eq_ix2 j⟩
    show Cert.ReferenceIdeal.Read.val_main_v8 (F := Ideal) _ _ _ (ix2 r c')
      = score (Cert.KernelIdeal.Loss.selA m c) (Cert.KernelIdeal.Loss.itemA m c) r c'
    rw [Cert.ReferenceIdeal.RefValue.score_ref, sel_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
